-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_2)) (v4 : (c : Dev Cert.KernelIdeal.nD) → Buf (Elt Ideal) ((c.tc : Thread Cert.KernelIdeal.nD Cert.KernelIdeal.τ).loc Cert.KernelIdeal.main_v0_3)) (v5 : (c : Dev Cert.KernelIdeal.nD) → Buf (Elt Ideal) ((c.tc : Thread Cert.KernelIdeal.nD Cert.KernelIdeal.τ).loc Cert.KernelIdeal.main_v0_4)) (v6 : (c : Dev Cert.KernelIdeal.nD) → Buf (Elt Ideal) ((c.tc : Thread Cert.KernelIdeal.nD Cert.KernelIdeal.τ).loc Cert.KernelIdeal.main_v0_5)) (v7 : (c : Dev Cert.KernelIdeal.nD) → Buf (Elt Ideal) ((c.tc : Thread Cert.KernelIdeal.nD Cert.KernelIdeal.τ).loc Cert.KernelIdeal.main_v0_6)) (v8 : (c : Dev Cert.KernelIdeal.nD) → Buf (Elt Ideal) ((c.tc : Thread Cert.KernelIdeal.nD Cert.KernelIdeal.τ).loc Cert.KernelIdeal.main_v0_7)) (v9 : (c : Dev Cert.KernelIdeal.nD) → Buf (Elt Ideal) ((c.tc : Thread Cert.KernelIdeal.nD Cert.KernelIdeal.τ).loc Cert.KernelIdeal.main_v0_8)) (v10 : (c : Dev Cert.KernelIdeal.nD) → Buf (Elt Ideal) ((c.tc : Thread Cert.KernelIdeal.nD Cert.KernelIdeal.τ).loc Cert.KernelIdeal.main_v0_9)) (v11 : (c : Dev Cert.KernelIdeal.nD) → Buf (Elt Ideal) ((c.tc : Thread Cert.KernelIdeal.nD Cert.KernelIdeal.τ).loc Cert.KernelIdeal.main_v0_10)) (v12 : (c : Dev Cert.KernelIdeal.nD) → Buf (Elt Ideal) ((c.tc : Thread Cert.KernelIdeal.nD Cert.KernelIdeal.τ).loc Cert.KernelIdeal.main_v0_11)) (v13 : (c : Dev Cert.KernelIdeal.nD) → Buf (Elt Ideal) ((c.tc : Thread Cert.KernelIdeal.nD Cert.KernelIdeal.τ).loc Cert.KernelIdeal.main_v0_12)) (v14 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_v0_3) = v4 c
          ∧ r.2.mem ((c.tc : Thread Cert.KernelIdeal.nD Cert.KernelIdeal.τ).loc Cert.KernelIdeal.main_v0_4) = v5 c
          ∧ r.2.mem ((c.tc : Thread Cert.KernelIdeal.nD Cert.KernelIdeal.τ).loc Cert.KernelIdeal.main_v0_5) = v6 c
          ∧ r.2.mem ((c.tc : Thread Cert.KernelIdeal.nD Cert.KernelIdeal.τ).loc Cert.KernelIdeal.main_v0_6) = v7 c
          ∧ r.2.mem ((c.tc : Thread Cert.KernelIdeal.nD Cert.KernelIdeal.τ).loc Cert.KernelIdeal.main_v0_7) = v8 c
          ∧ r.2.mem ((c.tc : Thread Cert.KernelIdeal.nD Cert.KernelIdeal.τ).loc Cert.KernelIdeal.main_v0_8) = v9 c
          ∧ r.2.mem ((c.tc : Thread Cert.KernelIdeal.nD Cert.KernelIdeal.τ).loc Cert.KernelIdeal.main_v0_9) = v10 c
          ∧ r.2.mem ((c.tc : Thread Cert.KernelIdeal.nD Cert.KernelIdeal.τ).loc Cert.KernelIdeal.main_v0_10) = v11 c
          ∧ r.2.mem ((c.tc : Thread Cert.KernelIdeal.nD Cert.KernelIdeal.τ).loc Cert.KernelIdeal.main_v0_11) = v12 c
          ∧ r.2.mem ((c.tc : Thread Cert.KernelIdeal.nD Cert.KernelIdeal.τ).loc Cert.KernelIdeal.main_v0_12) = v13 c
          ∧ r.2.mem ((c.tc : Thread Cert.KernelIdeal.nD Cert.KernelIdeal.τ).loc Cert.KernelIdeal.main_v0_0) = v14 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_v77) = v6 c
          ∧ r.2.mem ((c.tc : Thread Cert.ReferenceIdeal.nD Cert.ReferenceIdeal.τ).loc Cert.ReferenceIdeal.main_v93) = v7 c
          ∧ r.2.mem ((c.tc : Thread Cert.ReferenceIdeal.nD Cert.ReferenceIdeal.τ).loc Cert.ReferenceIdeal.main_v109) = v8 c
          ∧ r.2.mem ((c.tc : Thread Cert.ReferenceIdeal.nD Cert.ReferenceIdeal.τ).loc Cert.ReferenceIdeal.main_v125) = v9 c
          ∧ r.2.mem ((c.tc : Thread Cert.ReferenceIdeal.nD Cert.ReferenceIdeal.τ).loc Cert.ReferenceIdeal.main_v141) = v10 c
          ∧ r.2.mem ((c.tc : Thread Cert.ReferenceIdeal.nD Cert.ReferenceIdeal.τ).loc Cert.ReferenceIdeal.main_v157) = v11 c
          ∧ r.2.mem ((c.tc : Thread Cert.ReferenceIdeal.nD Cert.ReferenceIdeal.τ).loc Cert.ReferenceIdeal.main_v173) = v12 c
          ∧ r.2.mem ((c.tc : Thread Cert.ReferenceIdeal.nD Cert.ReferenceIdeal.τ).loc Cert.ReferenceIdeal.main_v189) = v13 c
          ∧ r.2.mem ((c.tc : Thread Cert.ReferenceIdeal.nD Cert.ReferenceIdeal.τ).loc Cert.ReferenceIdeal.main_v190) = v14 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x4 : Shape := ⟨2, ![524288, 4]⟩
abbrev S4x22 : Shape := ⟨2, ![4, 22]⟩
abbrev S11x22x22 : Shape := ⟨3, ![11, 22, 22]⟩
abbrev S22x3 : Shape := ⟨2, ![22, 3]⟩
abbrev S_ : Shape := ⟨0, ![]⟩

class Facts : Prop where
  bcast_S_S524288x4 : S_.BroadcastsInDim S524288x4 (![] : Fin 0 → Fin S524288x4.rank)
  reducesTo_S524288x4_S_d0_1 : S524288x4.ReducesTo [0, 1] S_
  h_S_ : 0 < S_.numel
  bcast_S_S4x22 : S_.BroadcastsInDim S4x22 (![] : Fin 0 → Fin S4x22.rank)
  reducesTo_S4x22_S_d0_1 : S4x22.ReducesTo [0, 1] S_
  bcast_S_S11x22x22 : S_.BroadcastsInDim S11x22x22 (![] : Fin 0 → Fin S11x22x22.rank)
  reducesTo_S11x22x22_S_d0_1_2 : S11x22x22.ReducesTo [0, 1, 2] S_
  bcast_S_S22x3 : S_.BroadcastsInDim S22x3 (![] : Fin 0 → Fin S22x3.rank)
  reducesTo_S22x3_S_d0_1 : S22x3.ReducesTo [0, 1] S_

variable [Facts]

def fn_part1 {F : FTy → Type} [FloatOps F] (main_v13 : IVec S_ 1) (main_v16 : IVec S22x3 1) : IVec S_ 1 :=
  let main_c_5 : IVec S_ 1 := constantI S_ 1 1#1
  let main_v17 : IVec S_ 1 := (fun x v => Host.reduce IntOp.andi x v reducesTo_S22x3_S_d0_1 h_S_) main_v16 main_c_5
  let main_v18 : IVec S_ 1 := andi main_v13 main_v17
  main_v18

def fn {F : FTy → Type} [FloatOps F] (main_arg0 : FVec F S524288x4 .f32) (main_arg1 : FVec F S4x22 .f32) (main_arg2 : FVec F S11x22x22 .f32) (main_arg3 : FVec F S22x3 .f32) : IVec S_ 1 :=
  let main_v0 : FVec F S524288x4 .f32 := Host.absf main_arg0
  let main_cst : FVec F S_ .f32 := constant S_ .f32 0x7F800000#32
  let main_v1 : FVec F S524288x4 .f32 := broadcastInDim S524288x4 ![] bcast_S_S524288x4 main_cst
  let main_v2 : IVec S524288x4 1 := cmpf .olt main_v0 main_v1
  let main_c : IVec S_ 1 := constantI S_ 1 1#1
  let main_v3 : IVec S_ 1 := (fun x v => Host.reduce IntOp.andi x v reducesTo_S524288x4_S_d0_1 h_S_) main_v2 main_c
  let main_v4 : FVec F S4x22 .f32 := Host.absf main_arg1
  let main_cst_0 : FVec F S_ .f32 := constant S_ .f32 0x7F800000#32
  let main_v5 : FVec F S4x22 .f32 := broadcastInDim S4x22 ![] bcast_S_S4x22 main_cst_0
  let main_v6 : IVec S4x22 1 := cmpf .olt main_v4 main_v5
  let main_c_1 : IVec S_ 1 := constantI S_ 1 1#1
  let main_v7 : IVec S_ 1 := (fun x v => Host.reduce IntOp.andi x v reducesTo_S4x22_S_d0_1 h_S_) main_v6 main_c_1
  let main_v8 : IVec S_ 1 := andi main_v3 main_v7
  let main_v9 : FVec F S11x22x22 .f32 := Host.absf main_arg2
  let main_cst_2 : FVec F S_ .f32 := constant S_ .f32 0x7F800000#32
  let main_v10 : FVec F S11x22x22 .f32 := broadcastInDim S11x22x22 ![] bcast_S_S11x22x22 main_cst_2
  let main_v11 : IVec S11x22x22 1 := cmpf .olt main_v9 main_v10
  let main_c_3 : IVec S_ 1 := constantI S_ 1 1#1
  let main_v12 : IVec S_ 1 := (fun x v => Host.reduce IntOp.andi x v reducesTo_S11x22x22_S_d0_1_2 h_S_) main_v11 main_c_3
  let main_v13 : IVec S_ 1 := andi main_v8 main_v12
  let main_v14 : FVec F S22x3 .f32 := Host.absf main_arg3
  let main_cst_4 : FVec F S_ .f32 := constant S_ .f32 0x7F800000#32
  let main_v15 : FVec F S22x3 .f32 := broadcastInDim S22x3 ![] bcast_S_S22x3 main_cst_4
  let main_v16 : IVec S22x3 1 := cmpf .olt main_v14 main_v15
  fn_part1 (F := F) main_v13 main_v16
-- ==== Kernel.lean ====
abbrev S524288x4 : Shape := ⟨2, ![524288, 4]⟩
abbrev S4x22 : Shape := ⟨2, ![4, 22]⟩
abbrev S11x22x22 : Shape := ⟨3, ![11, 22, 22]⟩
abbrev S22x3 : Shape := ⟨2, ![22, 3]⟩
abbrev S524288x3 : Shape := ⟨2, ![524288, 3]⟩
abbrev S524288x22 : Shape := ⟨2, ![524288, 22]⟩
abbrev S8192x4 : Shape := ⟨2, ![8192, 4]⟩
abbrev S8192x3 : Shape := ⟨2, ![8192, 3]⟩
abbrev S8192x22 : Shape := ⟨2, ![8192, 22]⟩
abbrev S1x22x22 : Shape := ⟨3, ![1, 22, 22]⟩
abbrev S22x22 : Shape := ⟨2, ![22, 22]⟩

abbrev nBuf : Space → Nat
  | .hbm => 17
  | .vmem => 31
  | .smem => 0
  | _ => 0

abbrev bufTy : (tb : Table) → Fin (tcTables nBuf tb) → BufTy
  | .hbm, ⟨0, _⟩ => ⟨S524288x4, .f32⟩
  | .hbm, ⟨1, _⟩ => ⟨S4x22, .f32⟩
  | .hbm, ⟨2, _⟩ => ⟨S11x22x22, .f32⟩
  | .hbm, ⟨3, _⟩ => ⟨S22x3, .f32⟩
  | .hbm, ⟨4, _⟩ => ⟨S524288x3, .f32⟩
  | .hbm, ⟨5, _⟩ => ⟨S524288x22, .f32⟩
  | .hbm, ⟨6, _⟩ => ⟨S524288x22, .f32⟩
  | .hbm, ⟨7, _⟩ => ⟨S524288x22, .f32⟩
  | .hbm, ⟨8, _⟩ => ⟨S524288x22, .f32⟩
  | .hbm, ⟨9, _⟩ => ⟨S524288x22, .f32⟩
  | .hbm, ⟨10, _⟩ => ⟨S524288x22, .f32⟩
  | .hbm, ⟨11, _⟩ => ⟨S524288x22, .f32⟩
  | .hbm, ⟨12, _⟩ => ⟨S524288x22, .f32⟩
  | .hbm, ⟨13, _⟩ => ⟨S524288x22, .f32⟩
  | .hbm, ⟨14, _⟩ => ⟨S524288x22, .f32⟩
  | .hbm, ⟨15, _⟩ => ⟨S524288x22, .f32⟩
  | .hbm, ⟨16, _⟩ => ⟨S524288x22, .f32⟩
  | .local _ .vmem, ⟨0, _⟩ => ⟨S8192x4, .f32⟩
  | .local _ .vmem, ⟨1, _⟩ => ⟨S8192x4, .f32⟩
  | .local _ .vmem, ⟨2, _⟩ => ⟨S4x22, .f32⟩
  | .local _ .vmem, ⟨3, _⟩ => ⟨S11x22x22, .f32⟩
  | .local _ .vmem, ⟨4, _⟩ => ⟨S22x3, .f32⟩
  | .local _ .vmem, ⟨5, _⟩ => ⟨S8192x3, .f32⟩
  | .local _ .vmem, ⟨6, _⟩ => ⟨S8192x3, .f32⟩
  | .local _ .vmem, ⟨7, _⟩ => ⟨S8192x22, .f32⟩
  | .local _ .vmem, ⟨8, _⟩ => ⟨S8192x22, .f32⟩
  | .local _ .vmem, ⟨9, _⟩ => ⟨S8192x22, .f32⟩
  | .local _ .vmem, ⟨10, _⟩ => ⟨S8192x22, .f32⟩
  | .local _ .vmem, ⟨11, _⟩ => ⟨S8192x22, .f32⟩
  | .local _ .vmem, ⟨12, _⟩ => ⟨S8192x22, .f32⟩
  | .local _ .vmem, ⟨13, _⟩ => ⟨S8192x22, .f32⟩
  | .local _ .vmem, ⟨14, _⟩ => ⟨S8192x22, .f32⟩
  | .local _ .vmem, ⟨15, _⟩ => ⟨S8192x22, .f32⟩
  | .local _ .vmem, ⟨16, _⟩ => ⟨S8192x22, .f32⟩
  | .local _ .vmem, ⟨17, _⟩ => ⟨S8192x22, .f32⟩
  | .local _ .vmem, ⟨18, _⟩ => ⟨S8192x22, .f32⟩
  | .local _ .vmem, ⟨19, _⟩ => ⟨S8192x22, .f32⟩
  | .local _ .vmem, ⟨20, _⟩ => ⟨S8192x22, .f32⟩
  | .local _ .vmem, ⟨21, _⟩ => ⟨S8192x22, .f32⟩
  | .local _ .vmem, ⟨22, _⟩ => ⟨S8192x22, .f32⟩
  | .local _ .vmem, ⟨23, _⟩ => ⟨S8192x22, .f32⟩
  | .local _ .vmem, ⟨24, _⟩ => ⟨S8192x22, .f32⟩
  | .local _ .vmem, ⟨25, _⟩ => ⟨S8192x22, .f32⟩
  | .local _ .vmem, ⟨26, _⟩ => ⟨S8192x22, .f32⟩
  | .local _ .vmem, ⟨27, _⟩ => ⟨S8192x22, .f32⟩
  | .local _ .vmem, ⟨28, _⟩ => ⟨S8192x22, .f32⟩
  | .local _ .vmem, ⟨29, _⟩ => ⟨S8192x22, .f32⟩
  | .local _ .vmem, ⟨30, _⟩ => ⟨S8192x22, .f32⟩
  | _, _ => ⟨S524288x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev main_v0_10 : Ref sig .tc := ⟨.hbm, 14, rfl⟩
abbrev main_v0_11 : Ref sig .tc := ⟨.hbm, 15, rfl⟩
abbrev main_v0_12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x22 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x22x22 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S22x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x22 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x22 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x22 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x22 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x22 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192x22 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8192x22 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8192x22 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8192x22 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8192x22 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8192x22 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8192x22 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S8192x4_S8192x4_0_0 : ∀ a, (![0, 0] : Fin 2 → Nat) a + S8192x4.size a ≤ S8192x4.size a
  h_S8192x4 : 0 < S8192x4.numel
  bitsLt_bf16_f32 : FTy.bits .bf16 < FTy.bits .f32
  inb_S4x22_S4x22_0_0 : ∀ a, (![0, 0] : Fin 2 → Nat) a + S4x22.size a ≤ S4x22.size a
  h_S4x22 : 0 < S4x22.numel
  iota_S8192x22_d1_w32 : S8192x22.Iotas .tc 32 [1]
  inb_S8192x22_S8192x22_0_0 : ∀ a, (![0, 0] : Fin 2 → Nat) a + S8192x22.size a ≤ S8192x22.size a
  h_S8192x22 : 0 < S8192x22.numel
  inb_S11x22x22_S11x22x22_0_0_0 : ∀ a, (![0, 0, 0] : Fin 3 → Nat) a + S11x22x22.size a ≤ S11x22x22.size a
  h_S11x22x22 : 0 < S11x22x22.numel
  slices_S11x22x22_o0_0_0_S1x22x22 : S11x22x22.Slices ![0, 0, 0] S1x22x22
  shapeCasts_S1x22x22_S22x22 : S1x22x22.ShapeCasts S22x22
  slices_S11x22x22_o1_0_0_S1x22x22 : S11x22x22.Slices ![1, 0, 0] S1x22x22
  slices_S11x22x22_o2_0_0_S1x22x22 : S11x22x22.Slices ![2, 0, 0] S1x22x22
  slices_S11x22x22_o3_0_0_S1x22x22 : S11x22x22.Slices ![3, 0, 0] S1x22x22
  slices_S11x22x22_o4_0_0_S1x22x22 : S11x22x22.Slices ![4, 0, 0] S1x22x22
  slices_S11x22x22_o5_0_0_S1x22x22 : S11x22x22.Slices ![5, 0, 0] S1x22x22
  slices_S11x22x22_o6_0_0_S1x22x22 : S11x22x22.Slices ![6, 0, 0] S1x22x22
  slices_S11x22x22_o7_0_0_S1x22x22 : S11x22x22.Slices ![7, 0, 0] S1x22x22
  slices_S11x22x22_o8_0_0_S1x22x22 : S11x22x22.Slices ![8, 0, 0] S1x22x22
  slices_S11x22x22_o9_0_0_S1x22x22 : S11x22x22.Slices ![9, 0, 0] S1x22x22
  slices_S11x22x22_o10_0_0_S1x22x22 : S11x22x22.Slices ![10, 0, 0] S1x22x22
  inb_S22x3_S22x3_0_0 : ∀ a, (![0, 0] : Fin 2 → Nat) a + S22x3.size a ≤ S22x3.size a
  h_S22x3 : 0 < S22x3.numel
  inb_S8192x3_S8192x3_0_0 : ∀ a, (![0, 0] : Fin 2 → Nat) a + S8192x3.size a ≤ S8192x3.size a
  h_S8192x3 : 0 < S8192x3.numel
  dot_S8192x4_S4x22_S8192x22_1_0_0_1_n_n_wf : DotDims.WF S8192x4 S4x22 S8192x22 [1] [0] [0] [1] [] []
  dot_S8192x22_S22x22_S8192x22_1_0_0_1_n_n_wf : DotDims.WF S8192x22 S22x22 S8192x22 [1] [0] [0] [1] [] []
  dot_S8192x22_S22x3_S8192x3_1_0_0_1_n_n_wf : DotDims.WF S8192x22 S22x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S524288x4.size a
  hwx0_0 : ∀ i : grid0.Coords, EltTy.bits .f32 = 32 ∨ (Rect.block (s := S524288x4) S8192x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x22.size a ≤ S4x22.size a
  hwx0_1 : ∀ i : grid0.Coords, EltTy.bits .f32 = 32 ∨ (Rect.block (s := S4x22) S4x22.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x22x22.size a ≤ S11x22x22.size a
  hwx0_2 : ∀ i : grid0.Coords, EltTy.bits .f32 = 32 ∨ (Rect.block (s := S11x22x22) S11x22x22.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S22x3.size a ≤ S22x3.size a
  hwx0_3 : ∀ i : grid0.Coords, EltTy.bits .f32 = 32 ∨ (Rect.block (s := S22x3) S22x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x3.size a ≤ S524288x3.size a
  hwx0_4 : ∀ i : grid0.Coords, EltTy.bits .f32 = 32 ∨ (Rect.block (s := S524288x3) S8192x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x22.size a ≤ S524288x22.size a
  hwx0_5 : ∀ i : grid0.Coords, EltTy.bits .f32 = 32 ∨ (Rect.block (s := S524288x22) S8192x22.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x22.size a ≤ S524288x22.size a
  hwx0_6 : ∀ i : grid0.Coords, EltTy.bits .f32 = 32 ∨ (Rect.block (s := S524288x22) S8192x22.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x22.size a ≤ S524288x22.size a
  hwx0_7 : ∀ i : grid0.Coords, EltTy.bits .f32 = 32 ∨ (Rect.block (s := S524288x22) S8192x22.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x22.size a ≤ S524288x22.size a
  hwx0_8 : ∀ i : grid0.Coords, EltTy.bits .f32 = 32 ∨ (Rect.block (s := S524288x22) S8192x22.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x22.size a ≤ S524288x22.size a
  hwx0_9 : ∀ i : grid0.Coords, EltTy.bits .f32 = 32 ∨ (Rect.block (s := S524288x22) S8192x22.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x22.size a ≤ S524288x22.size a
  hwx0_10 : ∀ i : grid0.Coords, EltTy.bits .f32 = 32 ∨ (Rect.block (s := S524288x22) S8192x22.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x22.size a ≤ S524288x22.size a
  hwx0_11 : ∀ i : grid0.Coords, EltTy.bits .f32 = 32 ∨ (Rect.block (s := S524288x22) S8192x22.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8192x22.size a ≤ S524288x22.size a
  hwx0_12 : ∀ i : grid0.Coords, EltTy.bits .f32 = 32 ∨ (Rect.block (s := S524288x22) S8192x22.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8192x22.size a ≤ S524288x22.size a
  hwx0_13 : ∀ i : grid0.Coords, EltTy.bits .f32 = 32 ∨ (Rect.block (s := S524288x22) S8192x22.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8192x22.size a ≤ S524288x22.size a
  hwx0_14 : ∀ i : grid0.Coords, EltTy.bits .f32 = 32 ∨ (Rect.block (s := S524288x22) S8192x22.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8192x22.size a ≤ S524288x22.size a
  hwx0_15 : ∀ i : grid0.Coords, EltTy.bits .f32 = 32 ∨ (Rect.block (s := S524288x22) S8192x22.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8192x22.size a ≤ S524288x22.size a
  hwx0_16 : ∀ i : grid0.Coords, EltTy.bits .f32 = 32 ∨ (Rect.block (s := S524288x22) S8192x22.size (cc0_transform_16 i) (hinb0_16 i)).WholeWords (EltTy.packing .f32)

variable [Facts₀]

def dot_S8192x4_S4x22_S8192x22_1_0_0_1_n_n : DotDims S8192x4 S4x22 S8192x22 where
  lhsContracting := [1]
  rhsContracting := [0]
  lhsNonContracting := [0]
  rhsNonContracting := [1]
  lhsBatch := []
  rhsBatch := []
  wf := dot_S8192x4_S4x22_S8192x22_1_0_0_1_n_n_wf
def dot_S8192x22_S22x22_S8192x22_1_0_0_1_n_n : DotDims S8192x22 S22x22 S8192x22 where
  lhsContracting := [1]
  rhsContracting := [0]
  lhsNonContracting := [0]
  rhsNonContracting := [1]
  lhsBatch := []
  rhsBatch := []
  wf := dot_S8192x22_S22x22_S8192x22_1_0_0_1_n_n_wf
def dot_S8192x22_S22x3_S8192x3_1_0_0_1_n_n : DotDims S8192x22 S22x3 S8192x3 where
  lhsContracting := [1]
  rhsContracting := [0]
  lhsNonContracting := [0]
  rhsNonContracting := [1]
  lhsBatch := []
  rhsBatch := []
  wf := dot_S8192x22_S22x3_S8192x3_1_0_0_1_n_n_wf

abbrev win0_0 : Pipeline.Window sig grid0 :=
  Pipeline.Window.ofSpec (Memref.whole main_arg0) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x22.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S11x22x22.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S22x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S8192x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8192x22.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S8192x22.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S8192x22.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_4) S8192x22.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_5) S8192x22.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_6) S8192x22.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_7) S8192x22.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_8) S8192x22.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_9) S8192x22.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_10) S8192x22.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_11) S8192x22.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_12) S8192x22.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S524288x4 : Shape := ⟨2, ![524288, 4]⟩
abbrev S4x22 : Shape := ⟨2, ![4, 22]⟩
abbrev S11x22x22 : Shape := ⟨3, ![11, 22, 22]⟩
abbrev S22x3 : Shape := ⟨2, ![22, 3]⟩
abbrev S524288x22 : Shape := ⟨2, ![524288, 22]⟩
abbrev S524288x15 : Shape := ⟨2, ![524288, 15]⟩
abbrev S_ : Shape := ⟨0, ![]⟩
abbrev S524288x2 : Shape := ⟨2, ![524288, 2]⟩
abbrev S524288x1 : Shape := ⟨2, ![524288, 1]⟩
abbrev S1x22x22 : Shape := ⟨3, ![1, 22, 22]⟩
abbrev S22x22 : Shape := ⟨2, ![22, 22]⟩
abbrev S524288x3 : Shape := ⟨2, ![524288, 3]⟩

abbrev nBuf : Space → Nat
  | .hbm => 219
  | .vmem => 0
  | .smem => 0
  | _ => 0

abbrev hbmTy0_0 (i : Nat) : BufTy := match i % 128 with
  | 0 => ⟨S524288x4, .f32⟩
  | 1 => ⟨S4x22, .f32⟩
  | 2 => ⟨S11x22x22, .f32⟩
  | 3 => ⟨S22x3, .f32⟩
  | 4 => ⟨S524288x22, .f32⟩
  | 5 => ⟨S524288x15, .f32⟩
  | 6 => ⟨S524288x4, .f32⟩
  | 7 => ⟨S524288x4, .f32⟩
  | 8 => ⟨S524288x4, .f32⟩
  | 9 => ⟨S524288x4, .f32⟩
  | 10 => ⟨S_, .f32⟩
  | 11 => ⟨S524288x4, .f32⟩
  | 12 => ⟨S524288x4, .f32⟩
  | 13 => ⟨S_, .f32⟩
  | 14 => ⟨S524288x4, .f32⟩
  | 15 => ⟨S524288x4, .f32⟩
  | 16 => ⟨S524288x2, .f32⟩
  | 17 => ⟨S524288x1, .f32⟩
  | 18 => ⟨S524288x1, .f32⟩
  | 19 => ⟨S524288x22, .f32⟩
  | 20 => ⟨S1x22x22, .f32⟩
  | 21 => ⟨S22x22, .f32⟩
  | 22 => ⟨S524288x22, .f32⟩
  | 23 => ⟨S524288x15, .f32⟩
  | 24 => ⟨S524288x4, .f32⟩
  | 25 => ⟨S524288x4, .f32⟩
  | 26 => ⟨S524288x4, .f32⟩
  | 27 => ⟨S524288x4, .f32⟩
  | 28 => ⟨S_, .f32⟩
  | 29 => ⟨S524288x4, .f32⟩
  | 30 => ⟨S524288x4, .f32⟩
  | 31 => ⟨S_, .f32⟩
  | 32 => ⟨S524288x4, .f32⟩
  | 33 => ⟨S524288x4, .f32⟩
  | 34 => ⟨S524288x2, .f32⟩
  | 35 => ⟨S524288x1, .f32⟩
  | 36 => ⟨S524288x1, .f32⟩
  | 37 => ⟨S524288x22, .f32⟩
  | 38 => ⟨S1x22x22, .f32⟩
  | 39 => ⟨S22x22, .f32⟩
  | 40 => ⟨S524288x22, .f32⟩
  | 41 => ⟨S524288x15, .f32⟩
  | 42 => ⟨S524288x4, .f32⟩
  | 43 => ⟨S524288x4, .f32⟩
  | 44 => ⟨S524288x4, .f32⟩
  | 45 => ⟨S524288x4, .f32⟩
  | 46 => ⟨S_, .f32⟩
  | 47 => ⟨S524288x4, .f32⟩
  | 48 => ⟨S524288x4, .f32⟩
  | 49 => ⟨S_, .f32⟩
  | 50 => ⟨S524288x4, .f32⟩
  | 51 => ⟨S524288x4, .f32⟩
  | 52 => ⟨S524288x2, .f32⟩
  | 53 => ⟨S524288x1, .f32⟩
  | 54 => ⟨S524288x1, .f32⟩
  | 55 => ⟨S524288x22, .f32⟩
  | 56 => ⟨S1x22x22, .f32⟩
  | 57 => ⟨S22x22, .f32⟩
  | 58 => ⟨S524288x22, .f32⟩
  | 59 => ⟨S524288x15, .f32⟩
  | 60 => ⟨S524288x4, .f32⟩
  | 61 => ⟨S524288x4, .f32⟩
  | 62 => ⟨S524288x4, .f32⟩
  | 63 => ⟨S524288x4, .f32⟩
  | 64 => ⟨S_, .f32⟩
  | 65 => ⟨S524288x4, .f32⟩
  | 66 => ⟨S524288x4, .f32⟩
  | 67 => ⟨S_, .f32⟩
  | 68 => ⟨S524288x4, .f32⟩
  | 69 => ⟨S524288x4, .f32⟩
  | 70 => ⟨S524288x2, .f32⟩
  | 71 => ⟨S524288x1, .f32⟩
  | 72 => ⟨S524288x1, .f32⟩
  | 73 => ⟨S524288x22, .f32⟩
  | 74 => ⟨S1x22x22, .f32⟩
  | 75 => ⟨S22x22, .f32⟩
  | 76 => ⟨S524288x22, .f32⟩
  | 77 => ⟨S524288x15, .f32⟩
  | 78 => ⟨S524288x4, .f32⟩
  | 79 => ⟨S524288x4, .f32⟩
  | 80 => ⟨S524288x4, .f32⟩
  | 81 => ⟨S524288x4, .f32⟩
  | 82 => ⟨S_, .f32⟩
  | 83 => ⟨S524288x4, .f32⟩
  | 84 => ⟨S524288x4, .f32⟩
  | 85 => ⟨S_, .f32⟩
  | 86 => ⟨S524288x4, .f32⟩
  | 87 => ⟨S524288x4, .f32⟩
  | 88 => ⟨S524288x2, .f32⟩
  | 89 => ⟨S524288x1, .f32⟩
  | 90 => ⟨S524288x1, .f32⟩
  | 91 => ⟨S524288x22, .f32⟩
  | 92 => ⟨S1x22x22, .f32⟩
  | 93 => ⟨S22x22, .f32⟩
  | 94 => ⟨S524288x22, .f32⟩
  | 95 => ⟨S524288x15, .f32⟩
  | 96 => ⟨S524288x4, .f32⟩
  | 97 => ⟨S524288x4, .f32⟩
  | 98 => ⟨S524288x4, .f32⟩
  | 99 => ⟨S524288x4, .f32⟩
  | 100 => ⟨S_, .f32⟩
  | 101 => ⟨S524288x4, .f32⟩
  | 102 => ⟨S524288x4, .f32⟩
  | 103 => ⟨S_, .f32⟩
  | 104 => ⟨S524288x4, .f32⟩
  | 105 => ⟨S524288x4, .f32⟩
  | 106 => ⟨S524288x2, .f32⟩
  | 107 => ⟨S524288x1, .f32⟩
  | 108 => ⟨S524288x1, .f32⟩
  | 109 => ⟨S524288x22, .f32⟩
  | 110 => ⟨S1x22x22, .f32⟩
  | 111 => ⟨S22x22, .f32⟩
  | 112 => ⟨S524288x22, .f32⟩
  | 113 => ⟨S524288x15, .f32⟩
  | 114 => ⟨S524288x4, .f32⟩
  | 115 => ⟨S524288x4, .f32⟩
  | 116 => ⟨S524288x4, .f32⟩
  | 117 => ⟨S524288x4, .f32⟩
  | 118 => ⟨S_, .f32⟩
  | 119 => ⟨S524288x4, .f32⟩
  | 120 => ⟨S524288x4, .f32⟩
  | 121 => ⟨S_, .f32⟩
  | 122 => ⟨S524288x4, .f32⟩
  | 123 => ⟨S524288x4, .f32⟩
  | 124 => ⟨S524288x2, .f32⟩
  | 125 => ⟨S524288x1, .f32⟩
  | 126 => ⟨S524288x1, .f32⟩
  | 127 => ⟨S524288x22, .f32⟩
  | _ => ⟨S524288x4, .f32⟩

abbrev hbmTy0_1 (i : Nat) : BufTy := match i % 128 with
  | 0 => ⟨S1x22x22, .f32⟩
  | 1 => ⟨S22x22, .f32⟩
  | 2 => ⟨S524288x22, .f32⟩
  | 3 => ⟨S524288x15, .f32⟩
  | 4 => ⟨S524288x4, .f32⟩
  | 5 => ⟨S524288x4, .f32⟩
  | 6 => ⟨S524288x4, .f32⟩
  | 7 => ⟨S524288x4, .f32⟩
  | 8 => ⟨S_, .f32⟩
  | 9 => ⟨S524288x4, .f32⟩
  | 10 => ⟨S524288x4, .f32⟩
  | 11 => ⟨S_, .f32⟩
  | 12 => ⟨S524288x4, .f32⟩
  | 13 => ⟨S524288x4, .f32⟩
  | 14 => ⟨S524288x2, .f32⟩
  | 15 => ⟨S524288x1, .f32⟩
  | 16 => ⟨S524288x1, .f32⟩
  | 17 => ⟨S524288x22, .f32⟩
  | 18 => ⟨S1x22x22, .f32⟩
  | 19 => ⟨S22x22, .f32⟩
  | 20 => ⟨S524288x22, .f32⟩
  | 21 => ⟨S524288x15, .f32⟩
  | 22 => ⟨S524288x4, .f32⟩
  | 23 => ⟨S524288x4, .f32⟩
  | 24 => ⟨S524288x4, .f32⟩
  | 25 => ⟨S524288x4, .f32⟩
  | 26 => ⟨S_, .f32⟩
  | 27 => ⟨S524288x4, .f32⟩
  | 28 => ⟨S524288x4, .f32⟩
  | 29 => ⟨S_, .f32⟩
  | 30 => ⟨S524288x4, .f32⟩
  | 31 => ⟨S524288x4, .f32⟩
  | 32 => ⟨S524288x2, .f32⟩
  | 33 => ⟨S524288x1, .f32⟩
  | 34 => ⟨S524288x1, .f32⟩
  | 35 => ⟨S524288x22, .f32⟩
  | 36 => ⟨S1x22x22, .f32⟩
  | 37 => ⟨S22x22, .f32⟩
  | 38 => ⟨S524288x22, .f32⟩
  | 39 => ⟨S524288x15, .f32⟩
  | 40 => ⟨S524288x4, .f32⟩
  | 41 => ⟨S524288x4, .f32⟩
  | 42 => ⟨S524288x4, .f32⟩
  | 43 => ⟨S524288x4, .f32⟩
  | 44 => ⟨S_, .f32⟩
  | 45 => ⟨S524288x4, .f32⟩
  | 46 => ⟨S524288x4, .f32⟩
  | 47 => ⟨S_, .f32⟩
  | 48 => ⟨S524288x4, .f32⟩
  | 49 => ⟨S524288x4, .f32⟩
  | 50 => ⟨S524288x2, .f32⟩
  | 51 => ⟨S524288x1, .f32⟩
  | 52 => ⟨S524288x1, .f32⟩
  | 53 => ⟨S524288x22, .f32⟩
  | 54 => ⟨S1x22x22, .f32⟩
  | 55 => ⟨S22x22, .f32⟩
  | 56 => ⟨S524288x22, .f32⟩
  | 57 => ⟨S524288x15, .f32⟩
  | 58 => ⟨S524288x4, .f32⟩
  | 59 => ⟨S524288x4, .f32⟩
  | 60 => ⟨S524288x4, .f32⟩
  | 61 => ⟨S524288x4, .f32⟩
  | 62 => ⟨S_, .f32⟩
  | 63 => ⟨S524288x4, .f32⟩
  | 64 => ⟨S524288x4, .f32⟩
  | 65 => ⟨S_, .f32⟩
  | 66 => ⟨S524288x4, .f32⟩
  | 67 => ⟨S524288x4, .f32⟩
  | 68 => ⟨S524288x2, .f32⟩
  | 69 => ⟨S524288x1, .f32⟩
  | 70 => ⟨S524288x1, .f32⟩
  | 71 => ⟨S524288x22, .f32⟩
  | 72 => ⟨S1x22x22, .f32⟩
  | 73 => ⟨S22x22, .f32⟩
  | 74 => ⟨S524288x22, .f32⟩
  | 75 => ⟨S524288x15, .f32⟩
  | 76 => ⟨S524288x4, .f32⟩
  | 77 => ⟨S524288x4, .f32⟩
  | 78 => ⟨S524288x4, .f32⟩
  | 79 => ⟨S524288x4, .f32⟩
  | 80 => ⟨S_, .f32⟩
  | 81 => ⟨S524288x4, .f32⟩
  | 82 => ⟨S524288x4, .f32⟩
  | 83 => ⟨S_, .f32⟩
  | 84 => ⟨S524288x4, .f32⟩
  | 85 => ⟨S524288x4, .f32⟩
  | 86 => ⟨S524288x2, .f32⟩
  | 87 => ⟨S524288x1, .f32⟩
  | 88 => ⟨S524288x1, .f32⟩
  | 89 => ⟨S524288x22, .f32⟩
  | 90 => ⟨S524288x3, .f32⟩
  | _ => ⟨S524288x4, .f32⟩

abbrev hbmTy (i : Nat) : BufTy := match i / 128 with
  | 0 => hbmTy0_0 i
  | 1 => hbmTy0_1 i
  | _ => ⟨S524288x4, .f32⟩

abbrev bufTy : (tb : Table) → Fin (tcTables nBuf tb) → BufTy
  | .hbm, ⟨i, _⟩ => hbmTy i
  | _, _ => ⟨S524288x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_7 : Ref sig .tc := ⟨.hbm, 82, rfl⟩
abbrev main_v70 : Ref sig .tc := ⟨.hbm, 83, rfl⟩
abbrev main_v71 : Ref sig .tc := ⟨.hbm, 84, rfl⟩
abbrev main_cst_8 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_9 : Ref sig .tc := ⟨.hbm, 100, rfl⟩
abbrev main_v86 : Ref sig .tc := ⟨.hbm, 101, rfl⟩
abbrev main_v87 : Ref sig .tc := ⟨.hbm, 102, rfl⟩
abbrev main_cst_10 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_11 : Ref sig .tc := ⟨.hbm, 118, rfl⟩
abbrev main_v102 : Ref sig .tc := ⟨.hbm, 119, rfl⟩
abbrev main_v103 : Ref sig .tc := ⟨.hbm, 120, rfl⟩
abbrev main_cst_12 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_13 : Ref sig .tc := ⟨.hbm, 136, rfl⟩
abbrev main_v118 : Ref sig .tc := ⟨.hbm, 137, rfl⟩
abbrev main_v119 : Ref sig .tc := ⟨.hbm, 138, rfl⟩
abbrev main_cst_14 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_cst_15 : Ref sig .tc := ⟨.hbm, 154, rfl⟩
abbrev main_v134 : Ref sig .tc := ⟨.hbm, 155, rfl⟩
abbrev main_v135 : Ref sig .tc := ⟨.hbm, 156, rfl⟩
abbrev main_cst_16 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_cst_17 : Ref sig .tc := ⟨.hbm, 172, rfl⟩
abbrev main_v150 : Ref sig .tc := ⟨.hbm, 173, rfl⟩
abbrev main_v151 : Ref sig .tc := ⟨.hbm, 174, rfl⟩
abbrev main_cst_18 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_cst_19 : Ref sig .tc := ⟨.hbm, 190, rfl⟩
abbrev main_v166 : Ref sig .tc := ⟨.hbm, 191, rfl⟩
abbrev main_v167 : Ref sig .tc := ⟨.hbm, 192, rfl⟩
abbrev main_cst_20 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_cst_21 : Ref sig .tc := ⟨.hbm, 208, rfl⟩
abbrev main_v182 : Ref sig .tc := ⟨.hbm, 209, rfl⟩
abbrev main_v183 : Ref sig .tc := ⟨.hbm, 210, rfl⟩
abbrev main_cst_22 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩

abbrev nD : Nat := 1
abbrev τ : Topo := Topo.v7x

variable {F : FTy → Type} [FloatOps F]

class Facts₀ : Prop where
  slices_S524288x22_S524288x15_0_0 : S524288x22.Slices ![0, 0] S524288x15
  slices_S524288x22_S524288x4_0_15 : S524288x22.Slices ![0, 15] S524288x4
  bcast_S_S524288x4 : S_.BroadcastsInDim S524288x4 (![] : Fin 0 → Fin S524288x4.rank)
  slices_S524288x22_S524288x2_0_19 : S524288x22.Slices ![0, 19] S524288x2
  slices_S524288x22_S524288x1_0_21 : S524288x22.Slices ![0, 21] S524288x1
  concatenates_S524288x15_S524288x4_S524288x2_S524288x1_S524288x22_d1 : Shape.Concatenates [S524288x15, S524288x4, S524288x2, S524288x1] S524288x22 1
  slices_S11x22x22_S1x22x22_0_0_0 : S11x22x22.Slices ![0, 0, 0] S1x22x22
  shapeCasts_S1x22x22_S22x22 : S1x22x22.ShapeCasts S22x22
  slices_S11x22x22_S1x22x22_1_0_0 : S11x22x22.Slices ![1, 0, 0] S1x22x22
  slices_S11x22x22_S1x22x22_2_0_0 : S11x22x22.Slices ![2, 0, 0] S1x22x22
  slices_S11x22x22_S1x22x22_3_0_0 : S11x22x22.Slices ![3, 0, 0] S1x22x22
  slices_S11x22x22_S1x22x22_4_0_0 : S11x22x22.Slices ![4, 0, 0] S1x22x22
  slices_S11x22x22_S1x22x22_5_0_0 : S11x22x22.Slices ![5, 0, 0] S1x22x22
  slices_S11x22x22_S1x22x22_6_0_0 : S11x22x22.Slices ![6, 0, 0] S1x22x22
  slices_S11x22x22_S1x22x22_7_0_0 : S11x22x22.Slices ![7, 0, 0] S1x22x22
  slices_S11x22x22_S1x22x22_8_0_0 : S11x22x22.Slices ![8, 0, 0] S1x22x22
  slices_S11x22x22_S1x22x22_9_0_0 : S11x22x22.Slices ![9, 0, 0] S1x22x22
  slices_S11x22x22_S1x22x22_10_0_0 : S11x22x22.Slices ![10, 0, 0] S1x22x22
  dot_S524288x4_S4x22_S524288x22_1_0_0_1_n_n_wf : DotDims.WF S524288x4 S4x22 S524288x22 [1] [0] [0] [1] [] []
  dot_S524288x22_S22x22_S524288x22_1_0_0_1_n_n_wf : DotDims.WF S524288x22 S22x22 S524288x22 [1] [0] [0] [1] [] []
  dot_S524288x22_S22x3_S524288x3_1_0_0_1_n_n_wf : DotDims.WF S524288x22 S22x3 S524288x3 [1] [0] [0] [1] [] []

variable [Facts₀]

def dot_S524288x4_S4x22_S524288x22_1_0_0_1_n_n : DotDims S524288x4 S4x22 S524288x22 where
  lhsContracting := [1]
  rhsContracting := [0]
  lhsNonContracting := [0]
  rhsNonContracting := [1]
  lhsBatch := []
  rhsBatch := []
  wf := dot_S524288x4_S4x22_S524288x22_1_0_0_1_n_n_wf
def dot_S524288x22_S22x22_S524288x22_1_0_0_1_n_n : DotDims S524288x22 S22x22 S524288x22 where
  lhsContracting := [1]
  rhsContracting := [0]
  lhsNonContracting := [0]
  rhsNonContracting := [1]
  lhsBatch := []
  rhsBatch := []
  wf := dot_S524288x22_S22x22_S524288x22_1_0_0_1_n_n_wf
def dot_S524288x22_S22x3_S524288x3_1_0_0_1_n_n : DotDims S524288x22 S22x3 S524288x3 where
  lhsContracting := [1]
  rhsContracting := [0]
  lhsNonContracting := [0]
  rhsNonContracting := [1]
  lhsBatch := []
  rhsBatch := []
  wf := dot_S524288x22_S22x3_S524288x3_1_0_0_1_n_n_wf

class Facts : Prop extends Facts₀ where

variable [Facts]
-- ==== Proof.Spec.lean ====
/-
  What both programs compute, row by row, over the extended reals.

  A row of the input (4 numbers) goes through twelve layers of 22 units and a final projection to 3 numbers. A layer is a
  matrix-vector product followed by a per-column activation: columns 0–14 and 19–20 pass the value through, columns 15–18
  take the bump 2·exp(−z²) − 1, column 21 takes the sine. Every row of every result array depends on the same row of the
  input alone, which is why a tiling over rows leaves the function unchanged.
-/
import Idealize.ShloMosaic.PureOps.Ideal
import Idealize.ShloMosaic.Lib.ValueIdx

noncomputable section

namespace Cert.Cppn

open Idealize.ShloMosaic Idealize.ShloMosaic.ValueIdx

/-- The bump 2·exp(−z²) − 1; the two float constants stay the words both programs print. -/
def bump (z : EReal) : EReal :=
  Ideal.exp (-(z * z)) * Ideal.ofBits .f32 0x40000000#32 - Ideal.ofBits .f32 0x3F800000#32

/-- The activation of column `q`. -/
def act (z : EReal) (q : Nat) : EReal :=
  if q = 21 then Ideal.sin z else if 15 ≤ q ∧ q < 19 then bump z else z

/-- One layer on a row: unit `q` is the activation of the row's product with column `q` of the weights. -/
def layer {K : Nat} (h : Fin K → EReal) (w : Fin K → Fin 22 → EReal) (q : Fin 22) : EReal :=
  act (∑ k : Fin K, h k * w k q) q.val

/-- The final projection of a row. -/
def proj (h : Fin 22 → EReal) (w : Fin 22 → Fin 3 → EReal) (o : Fin 3) : EReal :=
  ∑ k : Fin 22, h k * w k o

/-- The row's features after layer `l` (layer 0 reads the input row; layer l+1 reads layer l through hidden matrix l). -/
def feat (x : Fin 4 → EReal) (win : Fin 4 → Fin 22 → EReal) (wh : Nat → Fin 22 → Fin 22 → EReal) :
    Nat → Fin 22 → EReal
  | 0 => layer x win
  | l + 1 => layer (feat x win wh l) (wh l)

/-- A rank-2 array as a matrix. -/
def matOf {A B : Nat} (W : (⟨2, ![A, B]⟩ : Shape).Idx → EReal) (a : Fin A) (b : Fin B) : EReal := W (ix2 a b)

/-- Hidden matrix `l` of the stacked hidden weights (zero past the stack's end, which no layer reads). -/
def hidOf (W : (⟨3, ![11, 22, 22]⟩ : Shape).Idx → EReal) (l : Nat) (a b : Fin 22) : EReal :=
  if h : l < 11 then W (ix3 ⟨l, h⟩ a b) else 0

/-- Row `n` of an [R, 4] array. -/
def rowOf {R : Nat} (X : (⟨2, ![R, 4]⟩ : Shape).Idx → EReal) (n : Fin R) (k : Fin 4) : EReal := X (ix2 n k)

/-- Feature array `l` of an [R, 4] input: row n, column q is feature q of row n after layer l. -/
def featArr {R : Nat} (l : Nat) (X : (⟨2, ![R, 4]⟩ : Shape).Idx → EReal) (Win : (⟨2, ![4, 22]⟩ : Shape).Idx → EReal)
    (Wh : (⟨3, ![11, 22, 22]⟩ : Shape).Idx → EReal) : (⟨2, ![R, 22]⟩ : Shape).Idx → EReal :=
  fun i => feat (rowOf X (i 0)) (matOf Win) (hidOf Wh) l (i 1)

/-- The projected output array. -/
def outArr {R : Nat} (X : (⟨2, ![R, 4]⟩ : Shape).Idx → EReal) (Win : (⟨2, ![4, 22]⟩ : Shape).Idx → EReal)
    (Wh : (⟨3, ![11, 22, 22]⟩ : Shape).Idx → EReal) (Wout : (⟨2, ![22, 3]⟩ : Shape).Idx → EReal) :
    (⟨2, ![R, 3]⟩ : Shape).Idx → EReal :=
  fun i => proj (feat (rowOf X (i 0)) (matOf Win) (hidOf Wh) 11) (matOf Wout) (i 1)

theorem featArr_apply {R : Nat} (l : Nat) (X : (⟨2, ![R, 4]⟩ : Shape).Idx → EReal) (Win : (⟨2, ![4, 22]⟩ : Shape).Idx → EReal)
    (Wh : (⟨3, ![11, 22, 22]⟩ : Shape).Idx → EReal) (n : Fin R) (q : Fin 22) :
    featArr l X Win Wh (ix2 n q) = feat (rowOf X n) (matOf Win) (hidOf Wh) l q := rfl

theorem outArr_apply {R : Nat} (X : (⟨2, ![R, 4]⟩ : Shape).Idx → EReal) (Win : (⟨2, ![4, 22]⟩ : Shape).Idx → EReal)
    (Wh : (⟨3, ![11, 22, 22]⟩ : Shape).Idx → EReal) (Wout : (⟨2, ![22, 3]⟩ : Shape).Idx → EReal) (n : Fin R) (o : Fin 3) :
    outArr X Win Wh Wout (ix2 n o) = proj (feat (rowOf X n) (matOf Win) (hidOf Wh) 11) (matOf Wout) o := rfl

/-- The negated square as the kernel spells it, (0 − z)·z, is the reference's −(z·z), on every extended real. -/
theorem zero_sub_mul_self (z : EReal) : (0 - z) * z = -(z * z) := by
  rw [zero_sub, EReal.neg_mul]

end Cert.Cppn

end
-- ==== Proof.Activation.lean ====
/-
  The per-column activation in its two spellings, each read at one element.

  The kernel computes the three candidates (the value, its bump, its sine) on the whole block and picks by the column
  number (an iota along the columns, compared with 15, 19 and 21). The reference cuts the array into four column bands,
  applies each band's function and lays the bands side by side again. At entry (n, q) both are `act` of the entry, column `q`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«113496_j72919954751874_1_alg».proof.Proof.Spec

noncomputable section

namespace Cert.Cppn

open Idealize.ShloMosaic Idealize.ShloMosaic.ValueIdx

/-! ## The kernel's spelling: three candidates and two selects on the column number -/

/-- The two selects on a column number below 22, decided: column 21 takes the first candidate, columns 15–18 the second,
    every other column the third. -/
theorem sel_col {α : Type} (q : Nat) (hq : q < 22) (A B C : α) :
    Scalar.select (IntOp.cmpi .eq (BitVec.ofNat 32 q) 21#32) A
        (Scalar.select (IntOp.andi (IntOp.cmpi .sge (BitVec.ofNat 32 q) 15#32) (IntOp.cmpi .slt (BitVec.ofNat 32 q) 19#32)) B C)
      = if q = 21 then A else if 15 ≤ q ∧ q < 19 then B else C := by
  interval_cases q <;> rfl

variable {F : FTy → Type} [FloatOps F]

/-- The kernel's activation of a block of `R` rows, as it prints it. -/
def actVec {R : Nat} (hi : (⟨2, ![R, 22]⟩ : Shape).Iotas .tc 32 [1]) (z : FVec F ⟨2, ![R, 22]⟩ .f32) :
    FVec F ⟨2, ![R, 22]⟩ .f32 :=
  select (cmpi .eq (iota .tc ⟨2, ![R, 22]⟩ 32 [1] hi) (broadcast ⟨2, ![R, 22]⟩ 21#32)) (sin z)
    (select (andi (cmpi .sge (iota .tc ⟨2, ![R, 22]⟩ 32 [1] hi) (broadcast ⟨2, ![R, 22]⟩ 15#32))
                  (cmpi .slt (iota .tc ⟨2, ![R, 22]⟩ 32 [1] hi) (broadcast ⟨2, ![R, 22]⟩ 19#32)))
      (subf (mulf (exp (mulf (subf (broadcast ⟨2, ![R, 22]⟩ (Scalar.ofBits .f32 0x00000000#32)) z) z))
                  (broadcast ⟨2, ![R, 22]⟩ (Scalar.ofBits .f32 0x40000000#32)))
            (broadcast ⟨2, ![R, 22]⟩ (Scalar.ofBits .f32 0x3F800000#32)))
      z)

/-- At entry (p, q) it is `act` of the entry: the column number is `q`, and (0 − z)·z is −(z·z). -/
theorem actVec_apply {R : Nat} (hi : (⟨2, ![R, 22]⟩ : Shape).Iotas .tc 32 [1]) (z : FVec Ideal ⟨2, ![R, 22]⟩ .f32)
    (p : Fin R) (q : Fin 22) : actVec hi z (ix2 p q) = act (z (ix2 p q)) q.val := by
  have hio : iota .tc ⟨2, ![R, 22]⟩ 32 [1] hi (ix2 p q) = BitVec.ofNat 32 q.val :=
    iota_single_apply .tc ⟨2, ![R, 22]⟩ 32 1 hi (ix2 p q)
  show Scalar.select (IntOp.cmpi .eq (iota .tc ⟨2, ![R, 22]⟩ 32 [1] hi (ix2 p q)) 21#32) _
      (Scalar.select (IntOp.andi (IntOp.cmpi .sge (iota .tc ⟨2, ![R, 22]⟩ 32 [1] hi (ix2 p q)) 15#32)
        (IntOp.cmpi .slt (iota .tc ⟨2, ![R, 22]⟩ 32 [1] hi (ix2 p q)) 19#32)) _ _) = _
  rw [hio, sel_col q.val q.isLt]
  unfold act bump
  show (if q.val = 21 then Ideal.sin (z (ix2 p q)) else if 15 ≤ q.val ∧ q.val < 19 then
      Ideal.exp ((Ideal.ofBits .f32 0x00000000#32 - z (ix2 p q)) * z (ix2 p q)) * Ideal.ofBits .f32 0x40000000#32
        - Ideal.ofBits .f32 0x3F800000#32 else z (ix2 p q)) = _
  rw [Ideal.ofBits_zero_f32, zero_sub_mul_self]

/-! ## The reference's spelling: four column bands, each with its function, laid side by side -/

/-- Entry (n, q) of four bands laid side by side along the columns is the band's entry (n, q − pre), when band `k` has
    `m` columns and the bands before it have `pre` columns together, and q falls in it. -/
theorem band_apply {α : Type} {R m : Nat} (xs : List ((s : Shape) × (s.Idx → α)))
    (hc : Shape.Concatenates (xs.map (·.1)) ⟨2, ![R, 22]⟩ 1) (n : Fin R) (q : Fin 22)
    (k : Nat) (hk : k < xs.length) (x₁ : (⟨2, ![R, m]⟩ : Shape).Idx → α) (hxk : xs[k] = ⟨⟨2, ![R, m]⟩, x₁⟩)
    (pre : Nat)
    (hpre : (((xs.take k).map (·.1)).map fun s =>
      if h : s.rank = (⟨2, ![R, 22]⟩ : Shape).rank then s.size ((1 : Fin (⟨2, ![R, 22]⟩ : Shape).rank).cast h.symm) else 0).sum = pre)
    (hlo : pre ≤ q.val) (hhi : q.val < pre + m) :
    concatenate ⟨2, ![R, 22]⟩ 1 xs hc (ix2 n q) = x₁ (ix2 n ⟨q.val - pre, by omega⟩) :=
  concatenate_apply_piece 1 xs hc (ix2 n q) k hk ⟨2, ![R, m]⟩ x₁ hxk rfl pre hpre (ix2 n ⟨q.val - pre, by omega⟩)
    (fun b hb => by
      match b with
      | ⟨0, _⟩ => rfl
      | ⟨1, _⟩ => exact absurd rfl hb)
    (by show pre + (q.val - pre) = q.val; omega)

/-- A band of `m` columns cut at column `o`, at entry (n, j): the array's entry (n, o + j). -/
theorem slice_col {α : Type} {R m : Nat} (o : Nat) (z : (⟨2, ![R, 22]⟩ : Shape).Idx → α)
    (h : (⟨2, ![R, 22]⟩ : Shape).Slices ![0, o] ⟨2, ![R, m]⟩) (n : Fin R) (q : Fin 22) (hlo : o ≤ q.val) (hhi : q.val < o + m) :
    extractStridedSlice ⟨2, ![R, m]⟩ ![0, o] z h (ix2 n ⟨q.val - o, by omega⟩) = z (ix2 n q) :=
  slice2_axis1_apply o z h n ⟨q.val - o, by omega⟩ q (by show q.val = o + (q.val - o); omega)

/-- The four bands of the reference's activation, each with its shape: columns 0–14 as they are, the bump of columns
    15–18, columns 19–20 as they are, the sine of column 21. -/
def actBands {R : Nat} (h15 : (⟨2, ![R, 22]⟩ : Shape).Slices ![0, 0] ⟨2, ![R, 15]⟩)
    (h4 : (⟨2, ![R, 22]⟩ : Shape).Slices ![0, 15] ⟨2, ![R, 4]⟩)
    (h2 : (⟨2, ![R, 22]⟩ : Shape).Slices ![0, 19] ⟨2, ![R, 2]⟩)
    (h1 : (⟨2, ![R, 22]⟩ : Shape).Slices ![0, 21] ⟨2, ![R, 1]⟩)
    (hb : (⟨0, ![]⟩ : Shape).BroadcastsInDim ⟨2, ![R, 4]⟩ ![])
    (z : FVec F ⟨2, ![R, 22]⟩ .f32) : List ((s : Shape) × (s.Idx → F .f32)) :=
    [⟨⟨2, ![R, 15]⟩, extractStridedSlice ⟨2, ![R, 15]⟩ ![0, 0] z h15⟩,
     ⟨⟨2, ![R, 4]⟩, subf (mulf (Host.exp (Host.negf (mulf (extractStridedSlice ⟨2, ![R, 4]⟩ ![0, 15] z h4)
          (extractStridedSlice ⟨2, ![R, 4]⟩ ![0, 15] z h4))))
          (broadcastInDim ⟨2, ![R, 4]⟩ ![] hb (constant ⟨0, ![]⟩ .f32 0x40000000#32)))
          (broadcastInDim ⟨2, ![R, 4]⟩ ![] hb (constant ⟨0, ![]⟩ .f32 0x3F800000#32))⟩,
     ⟨⟨2, ![R, 2]⟩, extractStridedSlice ⟨2, ![R, 2]⟩ ![0, 19] z h2⟩,
     ⟨⟨2, ![R, 1]⟩, Host.sin (extractStridedSlice ⟨2, ![R, 1]⟩ ![0, 21] z h1)⟩]

/-- The reference's activation of an array of `R` rows, as it prints it: the bands laid side by side. -/
def actArr {R : Nat} (h15 : (⟨2, ![R, 22]⟩ : Shape).Slices ![0, 0] ⟨2, ![R, 15]⟩)
    (h4 : (⟨2, ![R, 22]⟩ : Shape).Slices ![0, 15] ⟨2, ![R, 4]⟩)
    (h2 : (⟨2, ![R, 22]⟩ : Shape).Slices ![0, 19] ⟨2, ![R, 2]⟩)
    (h1 : (⟨2, ![R, 22]⟩ : Shape).Slices ![0, 21] ⟨2, ![R, 1]⟩)
    (hb : (⟨0, ![]⟩ : Shape).BroadcastsInDim ⟨2, ![R, 4]⟩ ![])
    (hc : Shape.Concatenates [⟨2, ![R, 15]⟩, ⟨2, ![R, 4]⟩, ⟨2, ![R, 2]⟩, ⟨2, ![R, 1]⟩] ⟨2, ![R, 22]⟩ 1)
    (z : FVec F ⟨2, ![R, 22]⟩ .f32) : FVec F ⟨2, ![R, 22]⟩ .f32 :=
  concatenate ⟨2, ![R, 22]⟩ 1 (actBands h15 h4 h2 h1 hb z) hc

/-- At entry (n, q) it is `act` of the entry: q falls in exactly one band, whose function is the column's. -/
theorem actArr_apply {R : Nat} (h15 : (⟨2, ![R, 22]⟩ : Shape).Slices ![0, 0] ⟨2, ![R, 15]⟩)
    (h4 : (⟨2, ![R, 22]⟩ : Shape).Slices ![0, 15] ⟨2, ![R, 4]⟩)
    (h2 : (⟨2, ![R, 22]⟩ : Shape).Slices ![0, 19] ⟨2, ![R, 2]⟩)
    (h1 : (⟨2, ![R, 22]⟩ : Shape).Slices ![0, 21] ⟨2, ![R, 1]⟩)
    (hb : (⟨0, ![]⟩ : Shape).BroadcastsInDim ⟨2, ![R, 4]⟩ ![])
    (hc : Shape.Concatenates [⟨2, ![R, 15]⟩, ⟨2, ![R, 4]⟩, ⟨2, ![R, 2]⟩, ⟨2, ![R, 1]⟩] ⟨2, ![R, 22]⟩ 1)
    (z : FVec Ideal ⟨2, ![R, 22]⟩ .f32) (n : Fin R) (q : Fin 22) :
    actArr h15 h4 h2 h1 hb hc z (ix2 n q) = act (z (ix2 n q)) q.val := by
  have hq := q.isLt
  unfold actArr act
  by_cases c0 : q.val < 15
  · rw [band_apply (actBands h15 h4 h2 h1 hb z) hc n q 0 (by show (0 : Nat) < 4; omega) _ rfl 0 rfl (by omega) (by omega),
      slice_col 0 z h15 n q (by omega) (by omega), if_neg (by omega), if_neg (by omega)]
  · by_cases c1 : q.val < 19
    · rw [band_apply (actBands h15 h4 h2 h1 hb z) hc n q 1 (by show (1 : Nat) < 4; omega) _ rfl 15 rfl (by omega) (by omega),
        if_neg (by omega), if_pos ⟨by omega, c1⟩]
      show Ideal.exp (-(extractStridedSlice ⟨2, ![R, 4]⟩ ![0, 15] z h4 (ix2 n ⟨q.val - 15, by omega⟩)
          * extractStridedSlice ⟨2, ![R, 4]⟩ ![0, 15] z h4 (ix2 n ⟨q.val - 15, by omega⟩)))
          * Ideal.ofBits .f32 0x40000000#32 - Ideal.ofBits .f32 0x3F800000#32 = _
      rw [slice_col 15 z h4 n q (by omega) (by omega)]
      rfl
    · by_cases c2 : q.val < 21
      · rw [band_apply (actBands h15 h4 h2 h1 hb z) hc n q 2 (by show (2 : Nat) < 4; omega) _ rfl 19 rfl (by omega) (by omega),
          slice_col 19 z h2 n q (by omega) (by omega), if_neg (by omega), if_neg (by omega)]
      · rw [band_apply (actBands h15 h4 h2 h1 hb z) hc n q 3 (by show (3 : Nat) < 4; omega) _ rfl 21 rfl (by omega) (by omega),
          if_pos (by omega)]
        show Ideal.sin (extractStridedSlice ⟨2, ![R, 1]⟩ ![0, 21] z h1 (ix2 n ⟨q.val - 21, by omega⟩)) = _
        rw [slice_col 21 z h1 n q (by omega) (by omega)]

end Cert.Cppn

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.KernelBlock.lean ====
/-
  What one grid point computes, layer by layer, and each layer at one element.

  A grid point holds a block of 8192 input rows and the whole of the three weight arrays. Its body is the network on those
  rows: the first product, then eleven times (activation, product with the next hidden matrix cut from the stack), a last
  activation and the projection; each activated layer and the projection are stored whole. Here the body's stored values
  are named as a recursion over the layer number, and entry (p, q) of layer l is shown to be feature q of block row p.
-/
import proofs.«113496_j72919954751874_1_alg».proof.Proof.Gen.KernelIdeal.Frame
import proofs.«113496_j72919954751874_1_alg».proof.Proof.Activation
import proofs.«113496_j72919954751874_1_alg».proof.Proof.LibPlainDot
import Idealize.ShloMosaic.Lib.Pipeline.Value

noncomputable section

namespace Cert.Cppn.Kernel

open Cert.KernelIdeal Cert.KernelIdeal.Gen Idealize.ShloMosaic Idealize.ShloMosaic.TcCoe Idealize.ShloMosaic.ValueIdx Cert.Cppn

variable {F : FTy → Type} [FloatOps F]

/-- Matrix `l` of the stack of eleven is a [1, 22, 22] slice of it. -/
theorem slicesHid (l : Nat) (hl : l < 11) : S11x22x22.Slices ![l, 0, 0] S1x22x22 :=
  ⟨rfl, fun a => by
    match a with
    | ⟨0, _⟩ => show l + 1 ≤ 11; omega
    | ⟨1, _⟩ => show 0 + 22 ≤ 22; omega
    | ⟨2, _⟩ => show 0 + 22 ≤ 22; omega⟩

/-- Hidden matrix `l` as the body cuts it: the slice with its unit axis dropped. -/
def hidMat (l : Nat) (hl : l < 11) (x2 : Vec F S11x22x22 .f32) : FVec F S22x22 .bf16 :=
  truncf .bf16 (shapeCast S22x22 (extractStridedSlice S1x22x22 ![l, 0, 0] x2 (slicesHid l hl)) shapeCasts_S1x22x22_S22x22) bitsLt_bf16_f32

/-- The first product: the input block with the input weights. -/
def lin0 (x0 : Vec F S8192x4 .f32) (x1 : Vec F S4x22 .f32) : FVec F S8192x22 .f32 :=
  matmul dot_S8192x4_S4x22_S8192x22_1_0_0_1_n_n none (truncf .bf16 x0 bitsLt_bf16_f32) (truncf .bf16 x1 bitsLt_bf16_f32)
    (constant S8192x22 .f32 0x00000000#32)

/-- A hidden product: a layer's block with hidden matrix `l`. -/
def linH (l : Nat) (hl : l < 11) (h : FVec F S8192x22 .f32) (x2 : Vec F S11x22x22 .f32) : FVec F S8192x22 .f32 :=
  matmul dot_S8192x22_S22x22_S8192x22_1_0_0_1_n_n none (truncf .bf16 h bitsLt_bf16_f32) (hidMat l hl x2)
    (constant S8192x22 .f32 0x00000000#32)

/-- The projection: the last layer's block with the output weights. -/
def linOut (h : FVec F S8192x22 .f32) (x3 : Vec F S22x3 .f32) : FVec F S8192x3 .f32 :=
  matmul dot_S8192x22_S22x3_S8192x3_1_0_0_1_n_n none (truncf .bf16 h bitsLt_bf16_f32) (truncf .bf16 x3 bitsLt_bf16_f32)
    (constant S8192x3 .f32 0x00000000#32)

/-- The block after layer `l`. -/
def fblk (x0 : Vec F S8192x4 .f32) (x1 : Vec F S4x22 .f32) (x2 : Vec F S11x22x22 .f32) :
    (l : Nat) → l < 12 → FVec F S8192x22 .f32
  | 0, _ => actVec iota_S8192x22_d1_w32 (lin0 x0 x1)
  | l + 1, h => actVec iota_S8192x22_d1_w32 (linH l (by omega) (fblk x0 x1 x2 l (by omega)) x2)

/-! ## The body's stored values are these -/

section Stored
variable (x0 : Vec F S8192x4 .f32) (x1 : Vec F S4x22 .f32) (x2 : Vec F S11x22x22 .f32) (x3 : Vec F S22x3 .f32)

theorem out5_eq : out0_5 x0 x1 x2 x3
    = View.canon [⟨r0_2, fblk (View.ld x0 r0_0) (View.ld x1 r0_1) (View.ld x2 r0_3) 0 (by omega)⟩] := rfl
theorem out6_eq : out0_6 x0 x1 x2 x3
    = View.canon [⟨r0_2, fblk (View.ld x0 r0_0) (View.ld x1 r0_1) (View.ld x2 r0_3) 1 (by omega)⟩] := rfl
theorem out7_eq : out0_7 x0 x1 x2 x3
    = View.canon [⟨r0_2, fblk (View.ld x0 r0_0) (View.ld x1 r0_1) (View.ld x2 r0_3) 2 (by omega)⟩] := rfl
theorem out8_eq : out0_8 x0 x1 x2 x3
    = View.canon [⟨r0_2, fblk (View.ld x0 r0_0) (View.ld x1 r0_1) (View.ld x2 r0_3) 3 (by omega)⟩] := rfl
theorem out9_eq : out0_9 x0 x1 x2 x3
    = View.canon [⟨r0_2, fblk (View.ld x0 r0_0) (View.ld x1 r0_1) (View.ld x2 r0_3) 4 (by omega)⟩] := rfl
theorem out10_eq : out0_10 x0 x1 x2 x3
    = View.canon [⟨r0_2, fblk (View.ld x0 r0_0) (View.ld x1 r0_1) (View.ld x2 r0_3) 5 (by omega)⟩] := rfl
theorem out11_eq : out0_11 x0 x1 x2 x3
    = View.canon [⟨r0_2, fblk (View.ld x0 r0_0) (View.ld x1 r0_1) (View.ld x2 r0_3) 6 (by omega)⟩] := rfl
theorem out12_eq : out0_12 x0 x1 x2 x3
    = View.canon [⟨r0_2, fblk (View.ld x0 r0_0) (View.ld x1 r0_1) (View.ld x2 r0_3) 7 (by omega)⟩] := rfl
theorem out13_eq : out0_13 x0 x1 x2 x3
    = View.canon [⟨r0_2, fblk (View.ld x0 r0_0) (View.ld x1 r0_1) (View.ld x2 r0_3) 8 (by omega)⟩] := rfl
theorem out14_eq : out0_14 x0 x1 x2 x3
    = View.canon [⟨r0_2, fblk (View.ld x0 r0_0) (View.ld x1 r0_1) (View.ld x2 r0_3) 9 (by omega)⟩] := rfl
theorem out15_eq : out0_15 x0 x1 x2 x3
    = View.canon [⟨r0_2, fblk (View.ld x0 r0_0) (View.ld x1 r0_1) (View.ld x2 r0_3) 10 (by omega)⟩] := rfl
theorem out16_eq : out0_16 x0 x1 x2 x3
    = View.canon [⟨r0_2, fblk (View.ld x0 r0_0) (View.ld x1 r0_1) (View.ld x2 r0_3) 11 (by omega)⟩] := rfl
theorem out4_eq : out0_4 x0 x1 x2 x3
    = View.canon [⟨r0_5, linOut (fblk (View.ld x0 r0_0) (View.ld x1 r0_1) (View.ld x2 r0_3) 11 (by omega)) (View.ld x3 r0_4)⟩] := rfl

end Stored

/-! ## Each at one element -/

section Element
variable (x0 : Vec Ideal S8192x4 .f32) (x1 : Vec Ideal S4x22 .f32) (x2 : Vec Ideal S11x22x22 .f32) (x3 : Vec Ideal S22x3 .f32)

/-- Entry (a, b) of hidden matrix `l` as cut is entry (l, a, b) of the stack. -/
theorem hidMat_apply (l : Nat) (hl : l < 11) (a b : Fin 22) : hidMat l hl x2 (ix2 a b) = hidOf x2 l a b := by
  unfold hidMat hidOf
  rw [dif_pos hl]
  show shapeCast S22x22 (extractStridedSlice S1x22x22 ![l, 0, 0] x2 (slicesHid l hl)) shapeCasts_S1x22x22_S22x22 (ix2 a b) = _
  rw [shapeCast_apply _ _ (ix2 a b) (ix3 (0 : Fin 1) a b) (by
    rw [Shape.rowMajor_val_three, Shape.rowMajor_val_two]
    show (0 * 22 + a.val) * 22 + b.val = a.val * 22 + b.val
    omega)]
  exact extractStridedSlice_apply _ _ _ _ _ (fun ax => by
    match ax with
    | ⟨0, _⟩ => rfl
    | ⟨1, _⟩ => exact (Nat.zero_add _).symm
    | ⟨2, _⟩ => exact (Nat.zero_add _).symm)

/-- The first product at entry (p, q): row p of the block against column q of the input weights. -/
theorem lin0_apply (p : Fin 8192) (q : Fin 22) :
    lin0 x0 x1 (ix2 p q) = ∑ k : Fin 4, rowOf x0 p k * matOf x1 k q :=
  Cert.Lib.PlainDot.matmul_zero_apply 8192 4 22 (φ₁ := .bf16) (φ₂ := .bf16) none x0 x1 p q

/-- A hidden product at entry (p, q). -/
theorem linH_apply (l : Nat) (hl : l < 11) (h : FVec Ideal S8192x22 .f32) (p : Fin 8192) (q : Fin 22) :
    linH l hl h x2 (ix2 p q) = ∑ k : Fin 22, h (ix2 p k) * hidMat l hl x2 (ix2 k q) :=
  Cert.Lib.PlainDot.matmul_zero_apply 8192 22 22 (φ₁ := .bf16) (φ₂ := .bf16) none h (hidMat l hl x2) p q

/-- The projection at entry (p, o). -/
theorem linOut_apply (h : FVec Ideal S8192x22 .f32) (p : Fin 8192) (o : Fin 3) :
    linOut h x3 (ix2 p o) = ∑ k : Fin 22, h (ix2 p k) * matOf x3 k o :=
  Cert.Lib.PlainDot.matmul_zero_apply 8192 22 3 (φ₁ := .bf16) (φ₂ := .bf16) none h x3 p o

/-- Entry (p, q) of the block after layer `l` is feature `q` of block row `p`. -/
theorem fblk_apply (l : Nat) (hl : l < 12) (p : Fin 8192) (q : Fin 22) :
    fblk x0 x1 x2 l hl (ix2 p q) = feat (rowOf x0 p) (matOf x1) (hidOf x2) l q := by
  induction l generalizing q with
  | zero =>
    show actVec iota_S8192x22_d1_w32 (lin0 x0 x1) (ix2 p q) = layer (rowOf x0 p) (matOf x1) q
    rw [actVec_apply, lin0_apply]
    rfl
  | succ l ih =>
    show actVec iota_S8192x22_d1_w32 (linH l (by omega) (fblk x0 x1 x2 l (by omega)) x2) (ix2 p q)
      = layer (feat (rowOf x0 p) (matOf x1) (hidOf x2) l) (hidOf x2 l) q
    rw [actVec_apply, linH_apply]
    unfold layer
    congr 1
    exact Finset.sum_congr rfl fun k _ => by rw [ih (by omega) k, hidMat_apply]

/-- Entry (p, o) of the projected block. -/
theorem out_apply (p : Fin 8192) (o : Fin 3) :
    linOut (fblk x0 x1 x2 11 (by omega)) x3 (ix2 p o)
      = proj (feat (rowOf x0 p) (matOf x1) (hidOf x2) 11) (matOf x3) o := by
  rw [linOut_apply]
  unfold proj
  exact Finset.sum_congr rfl fun k _ => by rw [fblk_apply]

end Element

end Cert.Cppn.Kernel

end
-- ==== Proof.KernelArr.lean ====
/-
  From blocks to arrays: what the kernel's result arrays hold after the run.

  Grid point t holds rows 8192·t … 8192·t + 8191 of the input and of every result array, and the whole of the three weight
  arrays. What it writes back to a result array is therefore that band of rows of the row-wise function of the arguments;
  the 64 bands tile each result array, so each result array ends as that function.
-/
import proofs.«113496_j72919954751874_1_alg».proof.Proof.Gen.KernelIdeal.Value
import proofs.«113496_j72919954751874_1_alg».proof.Proof.KernelBlock

set_option maxRecDepth 16384

noncomputable section

namespace Cert.Cppn.Kernel

open Cert.KernelIdeal Cert.KernelIdeal.Gen Idealize.ShloMosaic Idealize.ShloMosaic.TcCoe Idealize.SL.Sem
open Idealize.ShloMosaic.ValueIdx Cert.Cppn
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays as the region finds them, at their literal types -/

abbrev X (c : Dev nD) : S524288x4.Idx → EReal := V m c main_arg0
abbrev Win (c : Dev nD) : S4x22.Idx → EReal := V m c main_arg1
abbrev Wh (c : Dev nD) : S11x22x22.Idx → EReal := V m c main_arg2
abbrev Wout (c : Dev nD) : S22x3.Idx → EReal := V m c main_arg3

abbrev xblk (c : Dev nD) (t : Fin cfg0.N) : Vec Ideal S8192x4 .f32 := iblk m c 0 t
abbrev winblk (c : Dev nD) (t : Fin cfg0.N) : Vec Ideal S4x22 .f32 := iblk m c 1 t
abbrev whblk (c : Dev nD) (t : Fin cfg0.N) : Vec Ideal S11x22x22 .f32 := iblk m c 2 t
abbrev woutblk (c : Dev nD) (t : Fin cfg0.N) : Vec Ideal S22x3 .f32 := iblk m c 3 t

/-! ## The index maps, decided over the 64 grid points -/

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0) :=
  (by decide +kernel : ∀ t : Fin grid0.N, _)

theorem tN (t : Fin cfg0.N) : t.val < 64 := t.isLt.trans_eq (show cfg0.N = 64 from N_0)

/-- The input block at point t is rows 8192·t … of the input. -/
theorem xblk_apply (c : Dev nD) (t : Fin cfg0.N) (p : Fin 8192) (k : Fin 4) :
    xblk m c t (ix2 p k) = X m c (ix2 ⟨t.val * 8192 + p.val, by have := tN t; omega⟩ k) := by
  obtain ⟨⟨e0, e1⟩, -⟩ := idx_in t
  show iblk m c 0 t (ix2 p k) = _
  unfold iblk
  rw [View.read_apply]
  refine congrArg (V m c main_arg0) (funext fun a => Fin.ext ?_)
  match a with
  | ⟨0, _⟩ => show win0_0.index t 0 * 8192 + 1 * p.val = t.val * 8192 + p.val; rw [e0]; omega
  | ⟨1, _⟩ => show win0_0.index t 1 * 4 + 1 * k.val = k.val; rw [e1]; omega

/-- Every point holds the whole of the input weights. -/
theorem winblk_eq (c : Dev nD) (t : Fin cfg0.N) : winblk m c t = Win m c := by
  obtain ⟨-, ⟨e0, e1⟩, -⟩ := idx_in t
  funext y
  show iblk m c 1 t y = _
  unfold iblk
  rw [View.read_apply]
  refine congrArg (V m c main_arg1) (funext fun a => Fin.ext ?_)
  match a with
  | ⟨0, _⟩ => show win0_1.index t 0 * 4 + 1 * (y 0).val = (y 0).val; rw [e0]; omega
  | ⟨1, _⟩ => show win0_1.index t 1 * 22 + 1 * (y 1).val = (y 1).val; rw [e1]; omega

/-- Every point holds the whole stack of hidden weights. -/
theorem whblk_eq (c : Dev nD) (t : Fin cfg0.N) : whblk m c t = Wh m c := by
  obtain ⟨-, -, ⟨e0, e1, e2⟩, -⟩ := idx_in t
  funext y
  show iblk m c 2 t y = _
  unfold iblk
  rw [View.read_apply]
  refine congrArg (V m c main_arg2) (funext fun a => Fin.ext ?_)
  match a with
  | ⟨0, _⟩ => show win0_2.index t 0 * 11 + 1 * (y 0).val = (y 0).val; rw [e0]; omega
  | ⟨1, _⟩ => show win0_2.index t 1 * 22 + 1 * (y 1).val = (y 1).val; rw [e1]; omega
  | ⟨2, _⟩ => show win0_2.index t 2 * 22 + 1 * (y 2).val = (y 2).val; rw [e2]; omega

/-- Every point holds the whole of the output weights. -/
theorem woutblk_eq (c : Dev nD) (t : Fin cfg0.N) : woutblk m c t = Wout m c := by
  obtain ⟨-, -, -, ⟨e0, e1⟩⟩ := idx_in t
  funext y
  show iblk m c 3 t y = _
  unfold iblk
  rw [View.read_apply]
  refine congrArg (V m c main_arg3) (funext fun a => Fin.ext ?_)
  match a with
  | ⟨0, _⟩ => show win0_3.index t 0 * 22 + 1 * (y 0).val = (y 0).val; rw [e0]; omega
  | ⟨1, _⟩ => show win0_3.index t 1 * 3 + 1 * (y 1).val = (y 1).val; rw [e1]; omega

/-- Row p of the input block at point t is row 8192·t + p of the input. -/
theorem rowOf_xblk (c : Dev nD) (t : Fin cfg0.N) (p : Fin 8192) :
    rowOf (xblk m c t) p = rowOf (X m c) ⟨t.val * 8192 + p.val, by have := tN t; omega⟩ :=
  funext fun k => xblk_apply m c t p k

/-- The block after layer l at point t, through any placement `e` of the block's entries at rows 8192·t … of a result
    array, is that array's feature function. -/
theorem blk_feat (c : Dev nD) (t : Fin cfg0.N) (l : Nat) (hl : l < 12) (e : S8192x22.Idx → S524288x22.Idx)
    (he : ∀ (p : Fin 8192) (q : Fin 22), e (ix2 p q) = ix2 ⟨t.val * 8192 + p.val, by have := tN t; omega⟩ q) :
    fblk (xblk m c t) (winblk m c t) (whblk m c t) l hl = fun y => featArr l (X m c) (Win m c) (Wh m c) (e y) := by
  funext y
  obtain ⟨p, q, rfl⟩ : ∃ (p : Fin 8192) (q : Fin 22), y = ix2 p q := ⟨y 0, y 1, eq_ix2 y⟩
  rw [fblk_apply, he, featArr_apply, rowOf_xblk, winblk_eq, whblk_eq]

/-- The projected block at point t, likewise. -/
theorem blk_out (c : Dev nD) (t : Fin cfg0.N) (e : S8192x3.Idx → S524288x3.Idx)
    (he : ∀ (p : Fin 8192) (o : Fin 3), e (ix2 p o) = ix2 ⟨t.val * 8192 + p.val, by have := tN t; omega⟩ o) :
    linOut (fblk (xblk m c t) (winblk m c t) (whblk m c t) 11 (by omega)) (woutblk m c t)
      = fun y => outArr (X m c) (Win m c) (Wh m c) (Wout m c) (e y) := by
  funext y
  obtain ⟨p, o, rfl⟩ : ∃ (p : Fin 8192) (o : Fin 3), y = ix2 p o := ⟨y 0, y 1, eq_ix2 y⟩
  rw [out_apply, he, outArr_apply, rowOf_xblk, winblk_eq, whblk_eq, woutblk_eq]

/-- A row of a result array is row p of the band of some grid point t: 8192·t + p. -/
theorem row_split {C : Nat} (i : (⟨2, ![524288, C]⟩ : Shape).Idx) :
    ∃ (t : Fin cfg0.N) (p : Fin 8192) (q : Fin C), i = ix2 ⟨t.val * 8192 + p.val, by have := tN t; omega⟩ q := by
  have h0 : (i 0).val < 524288 := (i 0).isLt
  refine ⟨⟨(i 0).val / 8192, (show (i 0).val / 8192 < 64 by omega).trans_eq (show cfg0.N = 64 from N_0).symm⟩,
    ⟨(i 0).val % 8192, Nat.mod_lt _ (by omega)⟩, i 1, ?_⟩
  refine (eq_ix2 i).trans ?_
  congr 1
  exact Fin.ext (by show (i 0).val = (i 0).val / 8192 * 8192 + (i 0).val % 8192; omega)

/-! ## The projection's window (window 4) -/

theorem idx4 : ∀ t : Fin cfg0.N, win0_4.index t (0 : Fin 2) = t.val ∧ win0_4.index t (1 : Fin 2) = 0 :=
  (by decide +kernel : ∀ t : Fin grid0.N, _)

theorem emb4 (t : Fin cfg0.N) (p : Fin 8192) (o : Fin 3) :
    ((cfg0.win 4).blk t).view.emb (ix2 p o) = ix2 ⟨t.val * 8192 + p.val, by have := tN t; omega⟩ o := by
  obtain ⟨e0, e1⟩ := idx4 t
  funext a; apply Fin.ext
  match a with
  | ⟨0, _⟩ => show win0_4.index t 0 * 8192 + 1 * p.val = t.val * 8192 + p.val; rw [e0]; omega
  | ⟨1, _⟩ => show win0_4.index t 1 * 3 + 1 * o.val = o.val; rw [e1]; omega

theorem flushed4_eq (c : Dev nD) (t : Fin cfg0.N) :
    (dats m 0 c).flushed 4 t = ((cfg0.win 4).blk t).view.read (Elt Ideal) (outArr (X m c) (Win m c) (Wh m c) (Wout m c)) := by
  rw [Cert.KernelIdeal.Value.flushed4, out4_eq, View.canon_unit_zero hz2]
  simp only [View.ld_unit_zero (S := S8192x4) hz2, View.ld_unit_zero (S := S4x22) hz2, View.ld_unit_zero (S := S11x22x22) hz3,
    View.ld_unit_zero (S := S22x3) hz2]
  exact blk_out m c t _ (emb4 t)

theorem cover4 (i : S524288x3.Idx) : ∃ t : Fin cfg0.N, (cfg0.win 4).flush t = true ∧ i ∈ ((cfg0.win 4).blk t).view.set := by
  obtain ⟨t, p, o, rfl⟩ := row_split i
  exact ⟨t, flush0_4 t, by rw [← emb4 t p o]; exact View.emb_mem_set _ _⟩

theorem final4 (c : Dev nD) : (dats m 0 c).arrAt 4 cfg0.N = outArr (X m c) (Win m c) (Wh m c) (Wout m c) :=
  (dats m 0 c).arrAt_eq_of_cover 4 _ (fun t _ => flushed4_eq m c t) cover4

/-! ## The twelve feature windows (windows 5 to 16: the features after layers 0 to 11)

Each has the same three steps: its index map sends point t to block (t, 0); so the block's entry (p, q) sits at row
8192·t + p, column q of the array; so what point t writes back is that band of the feature array, and the bands cover. -/

theorem idx5 : ∀ t : Fin cfg0.N, win0_5.index t (0 : Fin 2) = t.val ∧ win0_5.index t (1 : Fin 2) = 0 :=
  (by decide +kernel : ∀ t : Fin grid0.N, _)
theorem emb5 (t : Fin cfg0.N) (p : Fin 8192) (q : Fin 22) :
    ((cfg0.win 5).blk t).view.emb (ix2 p q) = ix2 ⟨t.val * 8192 + p.val, by have := tN t; omega⟩ q := by
  obtain ⟨e0, e1⟩ := idx5 t
  funext a; apply Fin.ext
  match a with
  | ⟨0, _⟩ => show win0_5.index t 0 * 8192 + 1 * p.val = t.val * 8192 + p.val; rw [e0]; omega
  | ⟨1, _⟩ => show win0_5.index t 1 * 22 + 1 * q.val = q.val; rw [e1]; omega
theorem flushed5_eq (c : Dev nD) (t : Fin cfg0.N) :
    (dats m 0 c).flushed 5 t = ((cfg0.win 5).blk t).view.read (Elt Ideal) (featArr 0 (X m c) (Win m c) (Wh m c)) := by
  rw [Cert.KernelIdeal.Value.flushed5, out5_eq, View.canon_unit_zero hz2]
  simp only [View.ld_unit_zero (S := S8192x4) hz2, View.ld_unit_zero (S := S4x22) hz2, View.ld_unit_zero (S := S11x22x22) hz3]
  exact blk_feat m c t 0 (by omega) _ (emb5 t)
theorem cover5 (i : S524288x22.Idx) : ∃ t : Fin cfg0.N, (cfg0.win 5).flush t = true ∧ i ∈ ((cfg0.win 5).blk t).view.set := by
  obtain ⟨t, p, q, rfl⟩ := row_split i
  exact ⟨t, flush0_5 t, by rw [← emb5 t p q]; exact View.emb_mem_set _ _⟩
theorem final5 (c : Dev nD) : (dats m 0 c).arrAt 5 cfg0.N = featArr 0 (X m c) (Win m c) (Wh m c) :=
  (dats m 0 c).arrAt_eq_of_cover 5 _ (fun t _ => flushed5_eq m c t) cover5

theorem idx6 : ∀ t : Fin cfg0.N, win0_6.index t (0 : Fin 2) = t.val ∧ win0_6.index t (1 : Fin 2) = 0 :=
  (by decide +kernel : ∀ t : Fin grid0.N, _)
theorem emb6 (t : Fin cfg0.N) (p : Fin 8192) (q : Fin 22) :
    ((cfg0.win 6).blk t).view.emb (ix2 p q) = ix2 ⟨t.val * 8192 + p.val, by have := tN t; omega⟩ q := by
  obtain ⟨e0, e1⟩ := idx6 t
  funext a; apply Fin.ext
  match a with
  | ⟨0, _⟩ => show win0_6.index t 0 * 8192 + 1 * p.val = t.val * 8192 + p.val; rw [e0]; omega
  | ⟨1, _⟩ => show win0_6.index t 1 * 22 + 1 * q.val = q.val; rw [e1]; omega
theorem flushed6_eq (c : Dev nD) (t : Fin cfg0.N) :
    (dats m 0 c).flushed 6 t = ((cfg0.win 6).blk t).view.read (Elt Ideal) (featArr 1 (X m c) (Win m c) (Wh m c)) := by
  rw [Cert.KernelIdeal.Value.flushed6, out6_eq, View.canon_unit_zero hz2]
  simp only [View.ld_unit_zero (S := S8192x4) hz2, View.ld_unit_zero (S := S4x22) hz2, View.ld_unit_zero (S := S11x22x22) hz3]
  exact blk_feat m c t 1 (by omega) _ (emb6 t)
theorem cover6 (i : S524288x22.Idx) : ∃ t : Fin cfg0.N, (cfg0.win 6).flush t = true ∧ i ∈ ((cfg0.win 6).blk t).view.set := by
  obtain ⟨t, p, q, rfl⟩ := row_split i
  exact ⟨t, flush0_6 t, by rw [← emb6 t p q]; exact View.emb_mem_set _ _⟩
theorem final6 (c : Dev nD) : (dats m 0 c).arrAt 6 cfg0.N = featArr 1 (X m c) (Win m c) (Wh m c) :=
  (dats m 0 c).arrAt_eq_of_cover 6 _ (fun t _ => flushed6_eq m c t) cover6

theorem idx7 : ∀ t : Fin cfg0.N, win0_7.index t (0 : Fin 2) = t.val ∧ win0_7.index t (1 : Fin 2) = 0 :=
  (by decide +kernel : ∀ t : Fin grid0.N, _)
theorem emb7 (t : Fin cfg0.N) (p : Fin 8192) (q : Fin 22) :
    ((cfg0.win 7).blk t).view.emb (ix2 p q) = ix2 ⟨t.val * 8192 + p.val, by have := tN t; omega⟩ q := by
  obtain ⟨e0, e1⟩ := idx7 t
  funext a; apply Fin.ext
  match a with
  | ⟨0, _⟩ => show win0_7.index t 0 * 8192 + 1 * p.val = t.val * 8192 + p.val; rw [e0]; omega
  | ⟨1, _⟩ => show win0_7.index t 1 * 22 + 1 * q.val = q.val; rw [e1]; omega
theorem flushed7_eq (c : Dev nD) (t : Fin cfg0.N) :
    (dats m 0 c).flushed 7 t = ((cfg0.win 7).blk t).view.read (Elt Ideal) (featArr 2 (X m c) (Win m c) (Wh m c)) := by
  rw [Cert.KernelIdeal.Value.flushed7, out7_eq, View.canon_unit_zero hz2]
  simp only [View.ld_unit_zero (S := S8192x4) hz2, View.ld_unit_zero (S := S4x22) hz2, View.ld_unit_zero (S := S11x22x22) hz3]
  exact blk_feat m c t 2 (by omega) _ (emb7 t)
theorem cover7 (i : S524288x22.Idx) : ∃ t : Fin cfg0.N, (cfg0.win 7).flush t = true ∧ i ∈ ((cfg0.win 7).blk t).view.set := by
  obtain ⟨t, p, q, rfl⟩ := row_split i
  exact ⟨t, flush0_7 t, by rw [← emb7 t p q]; exact View.emb_mem_set _ _⟩
theorem final7 (c : Dev nD) : (dats m 0 c).arrAt 7 cfg0.N = featArr 2 (X m c) (Win m c) (Wh m c) :=
  (dats m 0 c).arrAt_eq_of_cover 7 _ (fun t _ => flushed7_eq m c t) cover7

theorem idx8 : ∀ t : Fin cfg0.N, win0_8.index t (0 : Fin 2) = t.val ∧ win0_8.index t (1 : Fin 2) = 0 :=
  (by decide +kernel : ∀ t : Fin grid0.N, _)
theorem emb8 (t : Fin cfg0.N) (p : Fin 8192) (q : Fin 22) :
    ((cfg0.win 8).blk t).view.emb (ix2 p q) = ix2 ⟨t.val * 8192 + p.val, by have := tN t; omega⟩ q := by
  obtain ⟨e0, e1⟩ := idx8 t
  funext a; apply Fin.ext
  match a with
  | ⟨0, _⟩ => show win0_8.index t 0 * 8192 + 1 * p.val = t.val * 8192 + p.val; rw [e0]; omega
  | ⟨1, _⟩ => show win0_8.index t 1 * 22 + 1 * q.val = q.val; rw [e1]; omega
theorem flushed8_eq (c : Dev nD) (t : Fin cfg0.N) :
    (dats m 0 c).flushed 8 t = ((cfg0.win 8).blk t).view.read (Elt Ideal) (featArr 3 (X m c) (Win m c) (Wh m c)) := by
  rw [Cert.KernelIdeal.Value.flushed8, out8_eq, View.canon_unit_zero hz2]
  simp only [View.ld_unit_zero (S := S8192x4) hz2, View.ld_unit_zero (S := S4x22) hz2, View.ld_unit_zero (S := S11x22x22) hz3]
  exact blk_feat m c t 3 (by omega) _ (emb8 t)
theorem cover8 (i : S524288x22.Idx) : ∃ t : Fin cfg0.N, (cfg0.win 8).flush t = true ∧ i ∈ ((cfg0.win 8).blk t).view.set := by
  obtain ⟨t, p, q, rfl⟩ := row_split i
  exact ⟨t, flush0_8 t, by rw [← emb8 t p q]; exact View.emb_mem_set _ _⟩
theorem final8 (c : Dev nD) : (dats m 0 c).arrAt 8 cfg0.N = featArr 3 (X m c) (Win m c) (Wh m c) :=
  (dats m 0 c).arrAt_eq_of_cover 8 _ (fun t _ => flushed8_eq m c t) cover8

theorem idx9 : ∀ t : Fin cfg0.N, win0_9.index t (0 : Fin 2) = t.val ∧ win0_9.index t (1 : Fin 2) = 0 :=
  (by decide +kernel : ∀ t : Fin grid0.N, _)
theorem emb9 (t : Fin cfg0.N) (p : Fin 8192) (q : Fin 22) :
    ((cfg0.win 9).blk t).view.emb (ix2 p q) = ix2 ⟨t.val * 8192 + p.val, by have := tN t; omega⟩ q := by
  obtain ⟨e0, e1⟩ := idx9 t
  funext a; apply Fin.ext
  match a with
  | ⟨0, _⟩ => show win0_9.index t 0 * 8192 + 1 * p.val = t.val * 8192 + p.val; rw [e0]; omega
  | ⟨1, _⟩ => show win0_9.index t 1 * 22 + 1 * q.val = q.val; rw [e1]; omega
theorem flushed9_eq (c : Dev nD) (t : Fin cfg0.N) :
    (dats m 0 c).flushed 9 t = ((cfg0.win 9).blk t).view.read (Elt Ideal) (featArr 4 (X m c) (Win m c) (Wh m c)) := by
  rw [Cert.KernelIdeal.Value.flushed9, out9_eq, View.canon_unit_zero hz2]
  simp only [View.ld_unit_zero (S := S8192x4) hz2, View.ld_unit_zero (S := S4x22) hz2, View.ld_unit_zero (S := S11x22x22) hz3]
  exact blk_feat m c t 4 (by omega) _ (emb9 t)
theorem cover9 (i : S524288x22.Idx) : ∃ t : Fin cfg0.N, (cfg0.win 9).flush t = true ∧ i ∈ ((cfg0.win 9).blk t).view.set := by
  obtain ⟨t, p, q, rfl⟩ := row_split i
  exact ⟨t, flush0_9 t, by rw [← emb9 t p q]; exact View.emb_mem_set _ _⟩
theorem final9 (c : Dev nD) : (dats m 0 c).arrAt 9 cfg0.N = featArr 4 (X m c) (Win m c) (Wh m c) :=
  (dats m 0 c).arrAt_eq_of_cover 9 _ (fun t _ => flushed9_eq m c t) cover9

theorem idx10 : ∀ t : Fin cfg0.N, win0_10.index t (0 : Fin 2) = t.val ∧ win0_10.index t (1 : Fin 2) = 0 :=
  (by decide +kernel : ∀ t : Fin grid0.N, _)
theorem emb10 (t : Fin cfg0.N) (p : Fin 8192) (q : Fin 22) :
    ((cfg0.win 10).blk t).view.emb (ix2 p q) = ix2 ⟨t.val * 8192 + p.val, by have := tN t; omega⟩ q := by
  obtain ⟨e0, e1⟩ := idx10 t
  funext a; apply Fin.ext
  match a with
  | ⟨0, _⟩ => show win0_10.index t 0 * 8192 + 1 * p.val = t.val * 8192 + p.val; rw [e0]; omega
  | ⟨1, _⟩ => show win0_10.index t 1 * 22 + 1 * q.val = q.val; rw [e1]; omega
theorem flushed10_eq (c : Dev nD) (t : Fin cfg0.N) :
    (dats m 0 c).flushed 10 t = ((cfg0.win 10).blk t).view.read (Elt Ideal) (featArr 5 (X m c) (Win m c) (Wh m c)) := by
  rw [Cert.KernelIdeal.Value.flushed10, out10_eq, View.canon_unit_zero hz2]
  simp only [View.ld_unit_zero (S := S8192x4) hz2, View.ld_unit_zero (S := S4x22) hz2, View.ld_unit_zero (S := S11x22x22) hz3]
  exact blk_feat m c t 5 (by omega) _ (emb10 t)
theorem cover10 (i : S524288x22.Idx) : ∃ t : Fin cfg0.N, (cfg0.win 10).flush t = true ∧ i ∈ ((cfg0.win 10).blk t).view.set := by
  obtain ⟨t, p, q, rfl⟩ := row_split i
  exact ⟨t, flush0_10 t, by rw [← emb10 t p q]; exact View.emb_mem_set _ _⟩
theorem final10 (c : Dev nD) : (dats m 0 c).arrAt 10 cfg0.N = featArr 5 (X m c) (Win m c) (Wh m c) :=
  (dats m 0 c).arrAt_eq_of_cover 10 _ (fun t _ => flushed10_eq m c t) cover10

theorem idx11 : ∀ t : Fin cfg0.N, win0_11.index t (0 : Fin 2) = t.val ∧ win0_11.index t (1 : Fin 2) = 0 :=
  (by decide +kernel : ∀ t : Fin grid0.N, _)
theorem emb11 (t : Fin cfg0.N) (p : Fin 8192) (q : Fin 22) :
    ((cfg0.win 11).blk t).view.emb (ix2 p q) = ix2 ⟨t.val * 8192 + p.val, by have := tN t; omega⟩ q := by
  obtain ⟨e0, e1⟩ := idx11 t
  funext a; apply Fin.ext
  match a with
  | ⟨0, _⟩ => show win0_11.index t 0 * 8192 + 1 * p.val = t.val * 8192 + p.val; rw [e0]; omega
  | ⟨1, _⟩ => show win0_11.index t 1 * 22 + 1 * q.val = q.val; rw [e1]; omega
theorem flushed11_eq (c : Dev nD) (t : Fin cfg0.N) :
    (dats m 0 c).flushed 11 t = ((cfg0.win 11).blk t).view.read (Elt Ideal) (featArr 6 (X m c) (Win m c) (Wh m c)) := by
  rw [Cert.KernelIdeal.Value.flushed11, out11_eq, View.canon_unit_zero hz2]
  simp only [View.ld_unit_zero (S := S8192x4) hz2, View.ld_unit_zero (S := S4x22) hz2, View.ld_unit_zero (S := S11x22x22) hz3]
  exact blk_feat m c t 6 (by omega) _ (emb11 t)
theorem cover11 (i : S524288x22.Idx) : ∃ t : Fin cfg0.N, (cfg0.win 11).flush t = true ∧ i ∈ ((cfg0.win 11).blk t).view.set := by
  obtain ⟨t, p, q, rfl⟩ := row_split i
  exact ⟨t, flush0_11 t, by rw [← emb11 t p q]; exact View.emb_mem_set _ _⟩
theorem final11 (c : Dev nD) : (dats m 0 c).arrAt 11 cfg0.N = featArr 6 (X m c) (Win m c) (Wh m c) :=
  (dats m 0 c).arrAt_eq_of_cover 11 _ (fun t _ => flushed11_eq m c t) cover11

theorem idx12 : ∀ t : Fin cfg0.N, win0_12.index t (0 : Fin 2) = t.val ∧ win0_12.index t (1 : Fin 2) = 0 :=
  (by decide +kernel : ∀ t : Fin grid0.N, _)
theorem emb12 (t : Fin cfg0.N) (p : Fin 8192) (q : Fin 22) :
    ((cfg0.win 12).blk t).view.emb (ix2 p q) = ix2 ⟨t.val * 8192 + p.val, by have := tN t; omega⟩ q := by
  obtain ⟨e0, e1⟩ := idx12 t
  funext a; apply Fin.ext
  match a with
  | ⟨0, _⟩ => show win0_12.index t 0 * 8192 + 1 * p.val = t.val * 8192 + p.val; rw [e0]; omega
  | ⟨1, _⟩ => show win0_12.index t 1 * 22 + 1 * q.val = q.val; rw [e1]; omega
theorem flushed12_eq (c : Dev nD) (t : Fin cfg0.N) :
    (dats m 0 c).flushed 12 t = ((cfg0.win 12).blk t).view.read (Elt Ideal) (featArr 7 (X m c) (Win m c) (Wh m c)) := by
  rw [Cert.KernelIdeal.Value.flushed12, out12_eq, View.canon_unit_zero hz2]
  simp only [View.ld_unit_zero (S := S8192x4) hz2, View.ld_unit_zero (S := S4x22) hz2, View.ld_unit_zero (S := S11x22x22) hz3]
  exact blk_feat m c t 7 (by omega) _ (emb12 t)
theorem cover12 (i : S524288x22.Idx) : ∃ t : Fin cfg0.N, (cfg0.win 12).flush t = true ∧ i ∈ ((cfg0.win 12).blk t).view.set := by
  obtain ⟨t, p, q, rfl⟩ := row_split i
  exact ⟨t, flush0_12 t, by rw [← emb12 t p q]; exact View.emb_mem_set _ _⟩
theorem final12 (c : Dev nD) : (dats m 0 c).arrAt 12 cfg0.N = featArr 7 (X m c) (Win m c) (Wh m c) :=
  (dats m 0 c).arrAt_eq_of_cover 12 _ (fun t _ => flushed12_eq m c t) cover12

theorem idx13 : ∀ t : Fin cfg0.N, win0_13.index t (0 : Fin 2) = t.val ∧ win0_13.index t (1 : Fin 2) = 0 :=
  (by decide +kernel : ∀ t : Fin grid0.N, _)
theorem emb13 (t : Fin cfg0.N) (p : Fin 8192) (q : Fin 22) :
    ((cfg0.win 13).blk t).view.emb (ix2 p q) = ix2 ⟨t.val * 8192 + p.val, by have := tN t; omega⟩ q := by
  obtain ⟨e0, e1⟩ := idx13 t
  funext a; apply Fin.ext
  match a with
  | ⟨0, _⟩ => show win0_13.index t 0 * 8192 + 1 * p.val = t.val * 8192 + p.val; rw [e0]; omega
  | ⟨1, _⟩ => show win0_13.index t 1 * 22 + 1 * q.val = q.val; rw [e1]; omega
theorem flushed13_eq (c : Dev nD) (t : Fin cfg0.N) :
    (dats m 0 c).flushed 13 t = ((cfg0.win 13).blk t).view.read (Elt Ideal) (featArr 8 (X m c) (Win m c) (Wh m c)) := by
  rw [Cert.KernelIdeal.Value.flushed13, out13_eq, View.canon_unit_zero hz2]
  simp only [View.ld_unit_zero (S := S8192x4) hz2, View.ld_unit_zero (S := S4x22) hz2, View.ld_unit_zero (S := S11x22x22) hz3]
  exact blk_feat m c t 8 (by omega) _ (emb13 t)
theorem cover13 (i : S524288x22.Idx) : ∃ t : Fin cfg0.N, (cfg0.win 13).flush t = true ∧ i ∈ ((cfg0.win 13).blk t).view.set := by
  obtain ⟨t, p, q, rfl⟩ := row_split i
  exact ⟨t, flush0_13 t, by rw [← emb13 t p q]; exact View.emb_mem_set _ _⟩
theorem final13 (c : Dev nD) : (dats m 0 c).arrAt 13 cfg0.N = featArr 8 (X m c) (Win m c) (Wh m c) :=
  (dats m 0 c).arrAt_eq_of_cover 13 _ (fun t _ => flushed13_eq m c t) cover13

theorem idx14 : ∀ t : Fin cfg0.N, win0_14.index t (0 : Fin 2) = t.val ∧ win0_14.index t (1 : Fin 2) = 0 :=
  (by decide +kernel : ∀ t : Fin grid0.N, _)
theorem emb14 (t : Fin cfg0.N) (p : Fin 8192) (q : Fin 22) :
    ((cfg0.win 14).blk t).view.emb (ix2 p q) = ix2 ⟨t.val * 8192 + p.val, by have := tN t; omega⟩ q := by
  obtain ⟨e0, e1⟩ := idx14 t
  funext a; apply Fin.ext
  match a with
  | ⟨0, _⟩ => show win0_14.index t 0 * 8192 + 1 * p.val = t.val * 8192 + p.val; rw [e0]; omega
  | ⟨1, _⟩ => show win0_14.index t 1 * 22 + 1 * q.val = q.val; rw [e1]; omega
theorem flushed14_eq (c : Dev nD) (t : Fin cfg0.N) :
    (dats m 0 c).flushed 14 t = ((cfg0.win 14).blk t).view.read (Elt Ideal) (featArr 9 (X m c) (Win m c) (Wh m c)) := by
  rw [Cert.KernelIdeal.Value.flushed14, out14_eq, View.canon_unit_zero hz2]
  simp only [View.ld_unit_zero (S := S8192x4) hz2, View.ld_unit_zero (S := S4x22) hz2, View.ld_unit_zero (S := S11x22x22) hz3]
  exact blk_feat m c t 9 (by omega) _ (emb14 t)
theorem cover14 (i : S524288x22.Idx) : ∃ t : Fin cfg0.N, (cfg0.win 14).flush t = true ∧ i ∈ ((cfg0.win 14).blk t).view.set := by
  obtain ⟨t, p, q, rfl⟩ := row_split i
  exact ⟨t, flush0_14 t, by rw [← emb14 t p q]; exact View.emb_mem_set _ _⟩
theorem final14 (c : Dev nD) : (dats m 0 c).arrAt 14 cfg0.N = featArr 9 (X m c) (Win m c) (Wh m c) :=
  (dats m 0 c).arrAt_eq_of_cover 14 _ (fun t _ => flushed14_eq m c t) cover14

theorem idx15 : ∀ t : Fin cfg0.N, win0_15.index t (0 : Fin 2) = t.val ∧ win0_15.index t (1 : Fin 2) = 0 :=
  (by decide +kernel : ∀ t : Fin grid0.N, _)
theorem emb15 (t : Fin cfg0.N) (p : Fin 8192) (q : Fin 22) :
    ((cfg0.win 15).blk t).view.emb (ix2 p q) = ix2 ⟨t.val * 8192 + p.val, by have := tN t; omega⟩ q := by
  obtain ⟨e0, e1⟩ := idx15 t
  funext a; apply Fin.ext
  match a with
  | ⟨0, _⟩ => show win0_15.index t 0 * 8192 + 1 * p.val = t.val * 8192 + p.val; rw [e0]; omega
  | ⟨1, _⟩ => show win0_15.index t 1 * 22 + 1 * q.val = q.val; rw [e1]; omega
theorem flushed15_eq (c : Dev nD) (t : Fin cfg0.N) :
    (dats m 0 c).flushed 15 t = ((cfg0.win 15).blk t).view.read (Elt Ideal) (featArr 10 (X m c) (Win m c) (Wh m c)) := by
  rw [Cert.KernelIdeal.Value.flushed15, out15_eq, View.canon_unit_zero hz2]
  simp only [View.ld_unit_zero (S := S8192x4) hz2, View.ld_unit_zero (S := S4x22) hz2, View.ld_unit_zero (S := S11x22x22) hz3]
  exact blk_feat m c t 10 (by omega) _ (emb15 t)
theorem cover15 (i : S524288x22.Idx) : ∃ t : Fin cfg0.N, (cfg0.win 15).flush t = true ∧ i ∈ ((cfg0.win 15).blk t).view.set := by
  obtain ⟨t, p, q, rfl⟩ := row_split i
  exact ⟨t, flush0_15 t, by rw [← emb15 t p q]; exact View.emb_mem_set _ _⟩
theorem final15 (c : Dev nD) : (dats m 0 c).arrAt 15 cfg0.N = featArr 10 (X m c) (Win m c) (Wh m c) :=
  (dats m 0 c).arrAt_eq_of_cover 15 _ (fun t _ => flushed15_eq m c t) cover15

theorem idx16 : ∀ t : Fin cfg0.N, win0_16.index t (0 : Fin 2) = t.val ∧ win0_16.index t (1 : Fin 2) = 0 :=
  (by decide +kernel : ∀ t : Fin grid0.N, _)
theorem emb16 (t : Fin cfg0.N) (p : Fin 8192) (q : Fin 22) :
    ((cfg0.win 16).blk t).view.emb (ix2 p q) = ix2 ⟨t.val * 8192 + p.val, by have := tN t; omega⟩ q := by
  obtain ⟨e0, e1⟩ := idx16 t
  funext a; apply Fin.ext
  match a with
  | ⟨0, _⟩ => show win0_16.index t 0 * 8192 + 1 * p.val = t.val * 8192 + p.val; rw [e0]; omega
  | ⟨1, _⟩ => show win0_16.index t 1 * 22 + 1 * q.val = q.val; rw [e1]; omega
theorem flushed16_eq (c : Dev nD) (t : Fin cfg0.N) :
    (dats m 0 c).flushed 16 t = ((cfg0.win 16).blk t).view.read (Elt Ideal) (featArr 11 (X m c) (Win m c) (Wh m c)) := by
  rw [Cert.KernelIdeal.Value.flushed16, out16_eq, View.canon_unit_zero hz2]
  simp only [View.ld_unit_zero (S := S8192x4) hz2, View.ld_unit_zero (S := S4x22) hz2, View.ld_unit_zero (S := S11x22x22) hz3]
  exact blk_feat m c t 11 (by omega) _ (emb16 t)
theorem cover16 (i : S524288x22.Idx) : ∃ t : Fin cfg0.N, (cfg0.win 16).flush t = true ∧ i ∈ ((cfg0.win 16).blk t).view.set := by
  obtain ⟨t, p, q, rfl⟩ := row_split i
  exact ⟨t, flush0_16 t, by rw [← emb16 t p q]; exact View.emb_mem_set _ _⟩
theorem final16 (c : Dev nD) : (dats m 0 c).arrAt 16 cfg0.N = featArr 11 (X m c) (Win m c) (Wh m c) :=
  (dats m 0 c).arrAt_eq_of_cover 16 _ (fun t _ => flushed16_eq m c t) cover16

/-! ## The run, read -/

/-- The kernel's run with every result array as the row-wise function of the argument arrays. -/
theorem run : θ_run defs (onTc (τ := τ) (main (F := Ideal))) ⟨m, fun _ => 0, ρ⟩ fun r => ∀ c : Dev nD,
      r.2.mem ((c : Thread nD τ).loc main_v0_0) = outArr (X m c) (Win m c) (Wh m c) (Wout m c)
      ∧ r.2.mem ((c : Thread nD τ).loc main_arg0) = X m c
      ∧ r.2.mem ((c : Thread nD τ).loc main_v0_1) = featArr 0 (X m c) (Win m c) (Wh m c)
      ∧ r.2.mem ((c : Thread nD τ).loc main_v0_2) = featArr 1 (X m c) (Win m c) (Wh m c)
      ∧ r.2.mem ((c : Thread nD τ).loc main_v0_3) = featArr 2 (X m c) (Win m c) (Wh m c)
      ∧ r.2.mem ((c : Thread nD τ).loc main_v0_4) = featArr 3 (X m c) (Win m c) (Wh m c)
      ∧ r.2.mem ((c : Thread nD τ).loc main_v0_5) = featArr 4 (X m c) (Win m c) (Wh m c)
      ∧ r.2.mem ((c : Thread nD τ).loc main_v0_6) = featArr 5 (X m c) (Win m c) (Wh m c)
      ∧ r.2.mem ((c : Thread nD τ).loc main_v0_7) = featArr 6 (X m c) (Win m c) (Wh m c)
      ∧ r.2.mem ((c : Thread nD τ).loc main_v0_8) = featArr 7 (X m c) (Win m c) (Wh m c)
      ∧ r.2.mem ((c : Thread nD τ).loc main_v0_9) = featArr 8 (X m c) (Win m c) (Wh m c)
      ∧ r.2.mem ((c : Thread nD τ).loc main_v0_10) = featArr 9 (X m c) (Win m c) (Wh m c)
      ∧ r.2.mem ((c : Thread nD τ).loc main_v0_11) = featArr 10 (X m c) (Win m c) (Wh m c)
      ∧ r.2.mem ((c : Thread nD τ).loc main_v0_12) = featArr 11 (X m c) (Win m c) (Wh m c)
      ∧ r.2.mem ((c : Thread nD τ).loc main_v0_0) = outArr (X m c) (Win m c) (Wh m c) (Wout m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, h8, h9, h10, h11, h12, h13, h14, h15, h16, k0, k1, k2, k3⟩ := h c
    exact ⟨h4.trans (final4 m c), k0, h5.trans (final5 m c), h6.trans (final6 m c), h7.trans (final7 m c),
      h8.trans (final8 m c), h9.trans (final9 m c), h10.trans (final10 m c), h11.trans (final11 m c),
      h12.trans (final12 m c), h13.trans (final13 m c), h14.trans (final14 m c), h15.trans (final15 m c),
      h16.trans (final16 m c), h4.trans (final4 m c), k0, k1, k2, k3⟩)
    (Cert.KernelIdeal.Value.run_blocks (F := Ideal) m ρ)

end Cert.Cppn.Kernel

end
-- ==== Proof.RefArr.lean ====
/-
  The reference, layer by layer, and its result arrays as the row-wise function of the arguments.

  The reference runs the same network on the whole arrays: a product of the [524288, ·] array with a weight matrix, then the
  activation by column bands, eleven more times with the hidden matrices cut from the stack, and the projection. Its
  pre-activations are named as a recursion over the layer number; entry (n, q) of layer l is feature q of input row n.
-/
import proofs.«113496_j72919954751874_1_alg».proof.Proof.Gen.ReferenceIdeal.Run
import proofs.«113496_j72919954751874_1_alg».proof.Proof.Activation
import proofs.«113496_j72919954751874_1_alg».proof.Proof.LibPlainDot
import Idealize.ShloMosaic.Lib.Pipeline.Value

set_option maxRecDepth 16384

noncomputable section

namespace Cert.Cppn.Ref

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx Cert.Cppn

variable {F : FTy → Type} [FloatOps F]

/-- Matrix `l` of the stack of eleven is a [1, 22, 22] slice of it. -/
theorem slicesHid (l : Nat) (hl : l < 11) : S11x22x22.Slices ![l, 0, 0] S1x22x22 :=
  ⟨rfl, fun a => by
    match a with
    | ⟨0, _⟩ => show l + 1 ≤ 11; omega
    | ⟨1, _⟩ => show 0 + 22 ≤ 22; omega
    | ⟨2, _⟩ => show 0 + 22 ≤ 22; omega⟩

/-- Hidden matrix `l` as the reference cuts it: the slice, reshaped to drop its unit axis. -/
def hidMat (l : Nat) (hl : l < 11) (W : FVec F S11x22x22 .f32) : FVec F S22x22 .f32 :=
  shapeCast S22x22 (extractStridedSlice S1x22x22 ![l, 0, 0] W (slicesHid l hl)) shapeCasts_S1x22x22_S22x22

/-- The reference's activation of a [524288, 22] array. -/
def actR (z : FVec F S524288x22 .f32) : FVec F S524288x22 .f32 :=
  actArr slices_S524288x22_S524288x15_0_0 slices_S524288x22_S524288x4_0_15 slices_S524288x22_S524288x2_0_19
    slices_S524288x22_S524288x1_0_21 bcast_S_S524288x4 concatenates_S524288x15_S524288x4_S524288x2_S524288x1_S524288x22_d1 z

/-- The product that enters layer `l`'s activation. -/
def pre (Xa : FVec F S524288x4 .f32) (Wi : FVec F S4x22 .f32) (Wh : FVec F S11x22x22 .f32) :
    (l : Nat) → l < 12 → FVec F S524288x22 .f32
  | 0, _ => Host.dotGeneral dot_S524288x4_S4x22_S524288x22_1_0_0_1_n_n none Xa Wi
  | l + 1, h => Host.dotGeneral dot_S524288x22_S22x22_S524288x22_1_0_0_1_n_n none (actR (pre Xa Wi Wh l (by omega)))
      (hidMat l (by omega) Wh)

/-- The feature array after layer `l`. -/
def farr (Xa : FVec F S524288x4 .f32) (Wi : FVec F S4x22 .f32) (Wh : FVec F S11x22x22 .f32) (l : Nat) (hl : l < 12) :
    FVec F S524288x22 .f32 := actR (pre Xa Wi Wh l hl)

/-- The projected output array. -/
def oarr (Xa : FVec F S524288x4 .f32) (Wi : FVec F S4x22 .f32) (Wh : FVec F S11x22x22 .f32) (Wo : FVec F S22x3 .f32) :
    FVec F S524288x3 .f32 :=
  Host.dotGeneral dot_S524288x22_S22x3_S524288x3_1_0_0_1_n_n none (farr Xa Wi Wh 11 (by omega)) Wo

/-! ## Each at one element -/

section Element
variable (Xa : FVec Ideal S524288x4 .f32) (Wi : FVec Ideal S4x22 .f32) (Wh : FVec Ideal S11x22x22 .f32) (Wo : FVec Ideal S22x3 .f32)

theorem hidMat_apply (l : Nat) (hl : l < 11) (a b : Fin 22) : hidMat l hl Wh (ix2 a b) = hidOf Wh l a b := by
  unfold hidMat hidOf
  rw [dif_pos hl]
  rw [shapeCast_apply _ _ (ix2 a b) (ix3 (0 : Fin 1) a b) (by
    rw [Shape.rowMajor_val_three, Shape.rowMajor_val_two]
    show (0 * 22 + a.val) * 22 + b.val = a.val * 22 + b.val
    omega)]
  exact extractStridedSlice_apply _ _ _ _ _ (fun ax => by
    match ax with
    | ⟨0, _⟩ => rfl
    | ⟨1, _⟩ => exact (Nat.zero_add _).symm
    | ⟨2, _⟩ => exact (Nat.zero_add _).symm)

theorem actR_apply (z : FVec Ideal S524288x22 .f32) (n : Fin 524288) (q : Fin 22) : actR z (ix2 n q) = act (z (ix2 n q)) q.val :=
  actArr_apply _ _ _ _ _ _ z n q

/-- Entry (n, q) of the feature array after layer `l` is feature `q` of input row `n`. -/
theorem farr_apply (l : Nat) (hl : l < 12) (n : Fin 524288) (q : Fin 22) :
    farr Xa Wi Wh l hl (ix2 n q) = feat (rowOf Xa n) (matOf Wi) (hidOf Wh) l q := by
  induction l generalizing q with
  | zero =>
    show actR (Host.dotGeneral dot_S524288x4_S4x22_S524288x22_1_0_0_1_n_n none Xa Wi) (ix2 n q) = layer (rowOf Xa n) (matOf Wi) q
    rw [actR_apply]
    show act (FloatOps.dotGeneral (DotDims.plain 524288 4 22) none .single Xa Wi (ix2 n q)) q.val = _
    rw [Cert.Lib.PlainDot.dotGeneral_apply]
    rfl
  | succ l ih =>
    show actR (Host.dotGeneral dot_S524288x22_S22x22_S524288x22_1_0_0_1_n_n none (actR (pre Xa Wi Wh l (by omega)))
      (hidMat l (by omega) Wh)) (ix2 n q) = layer (feat (rowOf Xa n) (matOf Wi) (hidOf Wh) l) (hidOf Wh l) q
    rw [actR_apply]
    show act (FloatOps.dotGeneral (DotDims.plain 524288 22 22) none .single (farr Xa Wi Wh l (by omega)) (hidMat l (by omega) Wh)
      (ix2 n q)) q.val = _
    rw [Cert.Lib.PlainDot.dotGeneral_apply]
    unfold layer
    congr 1
    exact Finset.sum_congr rfl fun k _ => by rw [ih (by omega) k, hidMat_apply]

/-- Entry (n, o) of the projected output. -/
theorem oarr_apply (n : Fin 524288) (o : Fin 3) :
    oarr Xa Wi Wh Wo (ix2 n o) = proj (feat (rowOf Xa n) (matOf Wi) (hidOf Wh) 11) (matOf Wo) o := by
  show FloatOps.dotGeneral (DotDims.plain 524288 22 3) none .single (farr Xa Wi Wh 11 (by omega)) Wo (ix2 n o) = _
  rw [Cert.Lib.PlainDot.dotGeneral_apply]
  unfold proj
  exact Finset.sum_congr rfl fun k _ => by rw [farr_apply]; rfl

theorem farr_eq (l : Nat) (hl : l < 12) : farr Xa Wi Wh l hl = featArr l Xa Wi Wh := by
  funext i
  obtain ⟨n, q, rfl⟩ : ∃ (n : Fin 524288) (q : Fin 22), i = ix2 n q := ⟨i 0, i 1, eq_ix2 i⟩
  rw [farr_apply, featArr_apply]

/-- An array that is the activation of layer `l`'s product is feature array `l`. -/
theorem res_feat (l : Nat) (hl : l < 12) (v : FVec Ideal S524288x22 .f32) (hv : v = actR (pre Xa Wi Wh l hl)) :
    v = featArr l Xa Wi Wh := hv.trans (farr_eq Xa Wi Wh l hl)

theorem oarr_eq : oarr Xa Wi Wh Wo = outArr Xa Wi Wh Wo := by
  funext i
  obtain ⟨n, o, rfl⟩ : ∃ (n : Fin 524288) (o : Fin 3), i = ix2 n o := ⟨i 0, i 1, eq_ix2 i⟩
  rw [oarr_apply, outArr_apply]

end Element

/-! ## The run, read -/

variable (m : (ℓ : Loc nD τ sig) → Buf (Elt Ideal) ℓ) (ρ : Dev nD → PrngReg)

abbrev X (c : Dev nD) : S524288x4.Idx → EReal := m ((c.tc : Thread nD τ).loc main_arg0)
abbrev Win (c : Dev nD) : S4x22.Idx → EReal := m ((c.tc : Thread nD τ).loc main_arg1)
abbrev Wh (c : Dev nD) : S11x22x22.Idx → EReal := m ((c.tc : Thread nD τ).loc main_arg2)
abbrev Wout (c : Dev nD) : S22x3.Idx → EReal := m ((c.tc : Thread nD τ).loc main_arg3)

/-- The generated run names the twelve products; they are `pre` at the launch contents. -/
theorem res0 (V0 : Valuation τ sig (Elt F)) : res_main_v0 V0
    = pre (V0 (Proc.devRef .tc main_arg0)) (V0 (Proc.devRef .tc main_arg1)) (V0 (Proc.devRef .tc main_arg2)) 0 (by omega) := rfl
theorem res1 (V0 : Valuation τ sig (Elt F)) : res_main_v16 V0
    = pre (V0 (Proc.devRef .tc main_arg0)) (V0 (Proc.devRef .tc main_arg1)) (V0 (Proc.devRef .tc main_arg2)) 1 (by omega) := rfl
theorem res2 (V0 : Valuation τ sig (Elt F)) : res_main_v32 V0
    = pre (V0 (Proc.devRef .tc main_arg0)) (V0 (Proc.devRef .tc main_arg1)) (V0 (Proc.devRef .tc main_arg2)) 2 (by omega) := rfl
theorem res3 (V0 : Valuation τ sig (Elt F)) : res_main_v48 V0
    = pre (V0 (Proc.devRef .tc main_arg0)) (V0 (Proc.devRef .tc main_arg1)) (V0 (Proc.devRef .tc main_arg2)) 3 (by omega) := rfl
theorem res4 (V0 : Valuation τ sig (Elt F)) : res_main_v64 V0
    = pre (V0 (Proc.devRef .tc main_arg0)) (V0 (Proc.devRef .tc main_arg1)) (V0 (Proc.devRef .tc main_arg2)) 4 (by omega) := rfl
theorem res5 (V0 : Valuation τ sig (Elt F)) : res_main_v80 V0
    = pre (V0 (Proc.devRef .tc main_arg0)) (V0 (Proc.devRef .tc main_arg1)) (V0 (Proc.devRef .tc main_arg2)) 5 (by omega) := rfl
theorem res6 (V0 : Valuation τ sig (Elt F)) : res_main_v96 V0
    = pre (V0 (Proc.devRef .tc main_arg0)) (V0 (Proc.devRef .tc main_arg1)) (V0 (Proc.devRef .tc main_arg2)) 6 (by omega) := rfl
theorem res7 (V0 : Valuation τ sig (Elt F)) : res_main_v112 V0
    = pre (V0 (Proc.devRef .tc main_arg0)) (V0 (Proc.devRef .tc main_arg1)) (V0 (Proc.devRef .tc main_arg2)) 7 (by omega) := rfl
theorem res8 (V0 : Valuation τ sig (Elt F)) : res_main_v128 V0
    = pre (V0 (Proc.devRef .tc main_arg0)) (V0 (Proc.devRef .tc main_arg1)) (V0 (Proc.devRef .tc main_arg2)) 8 (by omega) := rfl
theorem res9 (V0 : Valuation τ sig (Elt F)) : res_main_v144 V0
    = pre (V0 (Proc.devRef .tc main_arg0)) (V0 (Proc.devRef .tc main_arg1)) (V0 (Proc.devRef .tc main_arg2)) 9 (by omega) := rfl
theorem res10 (V0 : Valuation τ sig (Elt F)) : res_main_v160 V0
    = pre (V0 (Proc.devRef .tc main_arg0)) (V0 (Proc.devRef .tc main_arg1)) (V0 (Proc.devRef .tc main_arg2)) 10 (by omega) := rfl
theorem res11 (V0 : Valuation τ sig (Elt F)) : res_main_v176 V0
    = pre (V0 (Proc.devRef .tc main_arg0)) (V0 (Proc.devRef .tc main_arg1)) (V0 (Proc.devRef .tc main_arg2)) 11 (by omega) := rfl

/-- The reference's run with every result array as the row-wise function of the argument arrays. -/
theorem run : θ_run defs (onTc (τ := τ) (main (F := Ideal))) ⟨m, fun _ => 0, ρ⟩ fun r => ∀ c : Dev nD,
      r.2.mem ((c.tc : Thread nD τ).loc main_v190) = outArr (X m c) (Win m c) (Wh m c) (Wout m c)
      ∧ r.2.mem ((c.tc : Thread nD τ).loc main_arg0) = X m c
      ∧ r.2.mem ((c.tc : Thread nD τ).loc main_v13) = featArr 0 (X m c) (Win m c) (Wh m c)
      ∧ r.2.mem ((c.tc : Thread nD τ).loc main_v29) = featArr 1 (X m c) (Win m c) (Wh m c)
      ∧ r.2.mem ((c.tc : Thread nD τ).loc main_v45) = featArr 2 (X m c) (Win m c) (Wh m c)
      ∧ r.2.mem ((c.tc : Thread nD τ).loc main_v61) = featArr 3 (X m c) (Win m c) (Wh m c)
      ∧ r.2.mem ((c.tc : Thread nD τ).loc main_v77) = featArr 4 (X m c) (Win m c) (Wh m c)
      ∧ r.2.mem ((c.tc : Thread nD τ).loc main_v93) = featArr 5 (X m c) (Win m c) (Wh m c)
      ∧ r.2.mem ((c.tc : Thread nD τ).loc main_v109) = featArr 6 (X m c) (Win m c) (Wh m c)
      ∧ r.2.mem ((c.tc : Thread nD τ).loc main_v125) = featArr 7 (X m c) (Win m c) (Wh m c)
      ∧ r.2.mem ((c.tc : Thread nD τ).loc main_v141) = featArr 8 (X m c) (Win m c) (Wh m c)
      ∧ r.2.mem ((c.tc : Thread nD τ).loc main_v157) = featArr 9 (X m c) (Win m c) (Wh m c)
      ∧ r.2.mem ((c.tc : Thread nD τ).loc main_v173) = featArr 10 (X m c) (Win m c) (Wh m c)
      ∧ r.2.mem ((c.tc : Thread nD τ).loc main_v189) = featArr 11 (X m c) (Win m c) (Wh m c)
      ∧ r.2.mem ((c.tc : Thread nD τ).loc main_v190) = outArr (X m c) (Win m c) (Wh m c) (Wout m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h3, h4, h5, h6, h7, h8, h9, h10, h11, h12, h13, h14, k0, k1, k2, k3⟩ := h c
    have eo : r.2.mem ((c.tc : Thread nD τ).loc main_v190) = outArr (X m c) (Win m c) (Wh m c) (Wout m c) :=
      (h0.trans (by rw [res11]; rfl)).trans (oarr_eq (X m c) (Win m c) (Wh m c) (Wout m c))
    exact ⟨eo, h1,
      res_feat (X m c) (Win m c) (Wh m c) 0 (by omega) _ (h2.trans (by rw [res0] <;> rfl)),
      res_feat (X m c) (Win m c) (Wh m c) 1 (by omega) _ (h3.trans (by rw [res1] <;> rfl)),
      res_feat (X m c) (Win m c) (Wh m c) 2 (by omega) _ (h4.trans (by rw [res2] <;> rfl)),
      res_feat (X m c) (Win m c) (Wh m c) 3 (by omega) _ (h5.trans (by rw [res3] <;> rfl)),
      res_feat (X m c) (Win m c) (Wh m c) 4 (by omega) _ (h6.trans (by rw [res4] <;> rfl)),
      res_feat (X m c) (Win m c) (Wh m c) 5 (by omega) _ (h7.trans (by rw [res5] <;> rfl)),
      res_feat (X m c) (Win m c) (Wh m c) 6 (by omega) _ (h8.trans (by rw [res6] <;> rfl)),
      res_feat (X m c) (Win m c) (Wh m c) 7 (by omega) _ (h9.trans (by rw [res7] <;> rfl)),
      res_feat (X m c) (Win m c) (Wh m c) 8 (by omega) _ (h10.trans (by rw [res8] <;> rfl)),
      res_feat (X m c) (Win m c) (Wh m c) 9 (by omega) _ (h11.trans (by rw [res9] <;> rfl)),
      res_feat (X m c) (Win m c) (Wh m c) 10 (by omega) _ (h12.trans (by rw [res10] <;> rfl)),
      res_feat (X m c) (Win m c) (Wh m c) 11 (by omega) _ (h13.trans (by rw [res11] <;> rfl)),
      eo, k0, k1, k2, k3⟩)
    (Cert.ReferenceIdeal.Value.run (F := Ideal) m ρ)

end Cert.Cppn.Ref

end
-- ==== Proof.lean ====
/-
  The kernel and its reference are one network over the extended reals.

  Both programs send each row of the [524288, 4] input through twelve layers of 22 units — a product with a weight matrix,
  then a per-column activation (identity on columns 0–14 and 19–20, the bump 2·exp(−z²) − 1 on columns 15–18, the sine on
  column 21) — and project the last layer to 3 numbers; they return the projection, the input, the twelve feature arrays
  and the projection again. The kernel tiles the rows into 64 bands of 8192 and runs the network on a band per grid point,
  casting the operands of each product to bf16 first; the reference runs it on the whole arrays. Over the extended reals a
  change of float format is the identity, a matrix product into a zero accumulator and the host's dot_general are the same
  sum, the kernel's negated square (0 − z)·z is the reference's −(z·z), and choosing a column's function by comparing the
  column number is the same as cutting the columns into bands and laying them side by side. So every result array of
  either program is the same row-wise function of the four argument arrays (Proof/Spec.lean); no fact about the inputs'
  finiteness is used. The idealized kernel is the kernel's own text read over the extended reals, so there is nothing to preserve.
-/
import proofs.«113496_j72919954751874_1_alg».proof.Defs
import proofs.«113496_j72919954751874_1_alg».proof.Proof.Gen.Kernel
import proofs.«113496_j72919954751874_1_alg».proof.Proof.Gen.Kernel.Skeleton
import proofs.«113496_j72919954751874_1_alg».proof.Proof.Gen.Kernel.Launch
import proofs.«113496_j72919954751874_1_alg».proof.Proof.Gen.Kernel.Points
import proofs.«113496_j72919954751874_1_alg».proof.Proof.Gen.Kernel.Frame
import proofs.«113496_j72919954751874_1_alg».proof.Proof.Gen.KernelIdeal
import proofs.«113496_j72919954751874_1_alg».proof.Proof.Gen.KernelIdeal.Skeleton
import proofs.«113496_j72919954751874_1_alg».proof.Proof.Gen.KernelIdeal.Launch
import proofs.«113496_j72919954751874_1_alg».proof.Proof.Gen.KernelIdeal.Points
import proofs.«113496_j72919954751874_1_alg».proof.Proof.Gen.KernelIdeal.Frame
import proofs.«113496_j72919954751874_1_alg».proof.Proof.Gen.ReferenceIdeal
import proofs.«113496_j72919954751874_1_alg».proof.Proof.Gen.Pre_finite_inputs
import proofs.«113496_j72919954751874_1_alg».proof.Proof.Gen.KernelIdeal.Value
import proofs.«113496_j72919954751874_1_alg».proof.Proof.Gen.ReferenceIdeal.Run
import proofs.«113496_j72919954751874_1_alg».proof.Proof.KernelArr
import proofs.«113496_j72919954751874_1_alg».proof.Proof.RefArr
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => by
    obtain ⟨-, -, -, -, -, -, -, -, -, -, -, -, -, -, -, k⟩ := h c
    exact k) (Cert.ReferenceIdeal.Value.run (F := Ideal) m ρ)

/-- Both runs end with every result array at the same row-wise function of the argument arrays, which agree. -/
theorem algebraic : Cert.algebraic_KernelIdeal_ReferenceIdeal := by
  intro m ρ m' ρ' _ hagree
  refine ⟨_, _, _, _, _, _, _, _, _, _, _, _, _, _, _, Cert.Cppn.Kernel.run m ρ, ?_⟩
  refine (θ_run Cert.ReferenceIdeal.defs _ _).mono (fun r h c => ?_) (Cert.Cppn.Ref.run m' ρ')
  obtain ⟨a0, a1, a2, a3⟩ := hagree c
  have e0 : Cert.Cppn.Kernel.X m c = Cert.Cppn.Ref.X m' c := a0.symm
  have e1 : Cert.Cppn.Kernel.Win m c = Cert.Cppn.Ref.Win m' c := a1.symm
  have e2 : Cert.Cppn.Kernel.Wh m c = Cert.Cppn.Ref.Wh m' c := a2.symm
  have e3 : Cert.Cppn.Kernel.Wout m c = Cert.Cppn.Ref.Wout m' c := a3.symm
  rw [e0, e1, e2, e3]
  exact h c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
